-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256x256 : Shape := ⟨4, ![8, 128, 256, 256]⟩
abbrev S128 : Shape := ⟨1, ![128]⟩
abbrev S_ : Shape := ⟨0, ![]⟩

class Facts : Prop where
  bcast_S_S8x128x256x256 : S_.BroadcastsInDim S8x128x256x256 (![] : Fin 0 → Fin S8x128x256x256.rank)
  reducesTo_S8x128x256x256_S_d0_1_2_3 : S8x128x256x256.ReducesTo [0, 1, 2, 3] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x128x256x256 .f32) (main_arg1 : FVec F S8x128x256x256 .f32) (main_arg2 : FVec F S128 .f32) (main_arg3 : FVec F S128 .f32) : IVec S_ 1 :=
  let main_v0 : FVec F S8x128x256x256 .f32 := Host.absf main_arg0
  let main_cst : FVec F S_ .f32 := constant S_ .f32 0x7F800000#32
  let main_v1 : FVec F S8x128x256x256 .f32 := broadcastInDim S8x128x256x256 ![] bcast_S_S8x128x256x256 main_cst
  let main_v2 : IVec S8x128x256x256 1 := cmpf .olt main_v0 main_v1
  let main_c : IVec S_ 1 := constantI S_ 1 1#1
  let main_v3 : IVec S_ 1 := (fun x v => Host.reduce IntOp.andi x v reducesTo_S8x128x256x256_S_d0_1_2_3 h_S_) main_v2 main_c
  let main_v4 : FVec F S8x128x256x256 .f32 := Host.absf main_arg1
  let main_cst_0 : FVec F S_ .f32 := constant S_ .f32 0x7F800000#32
  let main_v5 : FVec F S8x128x256x256 .f32 := broadcastInDim S8x128x256x256 ![] bcast_S_S8x128x256x256 main_cst_0
  let main_v6 : IVec S8x128x256x256 1 := cmpf .olt main_v4 main_v5
  let main_c_1 : IVec S_ 1 := constantI S_ 1 1#1
  let main_v7 : IVec S_ 1 := (fun x v => Host.reduce IntOp.andi x v reducesTo_S8x128x256x256_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x128x256x256 : Shape := ⟨4, ![8, 128, 256, 256]⟩
abbrev S128 : Shape := ⟨1, ![128]⟩
abbrev S1x128x64x128 : Shape := ⟨4, ![1, 128, 64, 128]⟩
abbrev S128x1x1 : Shape := ⟨3, ![128, 1, 1]⟩
abbrev S1x128x64x64 : Shape := ⟨4, ![1, 128, 64, 64]⟩
abbrev S128x64x64 : Shape := ⟨3, ![128, 64, 64]⟩
abbrev S32x4x64x64 : Shape := ⟨4, ![32, 4, 64, 64]⟩
abbrev S32x4x64 : Shape := ⟨3, ![32, 4, 64]⟩
abbrev S32x4x64x1 : Shape := ⟨4, ![32, 4, 64, 1]⟩
abbrev S32x4x1 : Shape := ⟨3, ![32, 4, 1]⟩
abbrev S32x4x1x1 : Shape := ⟨4, ![32, 4, 1, 1]⟩
abbrev S32x1x1 : Shape := ⟨3, ![32, 1, 1]⟩
abbrev S32x1x1x1 : Shape := ⟨4, ![32, 1, 1, 1]⟩

abbrev nBuf : Space → Nat
  | .hbm => 5
  | .vmem => 8
  | .smem => 0
  | _ => 0

abbrev bufTy : (tb : Table) → Fin (tcTables nBuf tb) → BufTy
  | .hbm, ⟨0, _⟩ => ⟨S8x128x256x256, .f32⟩
  | .hbm, ⟨1, _⟩ => ⟨S8x128x256x256, .f32⟩
  | .hbm, ⟨2, _⟩ => ⟨S128, .f32⟩
  | .hbm, ⟨3, _⟩ => ⟨S128, .f32⟩
  | .hbm, ⟨4, _⟩ => ⟨S8x128x256x256, .f32⟩
  | .local _ .vmem, ⟨0, _⟩ => ⟨S1x128x64x128, .f32⟩
  | .local _ .vmem, ⟨1, _⟩ => ⟨S1x128x64x128, .f32⟩
  | .local _ .vmem, ⟨2, _⟩ => ⟨S1x128x64x128, .f32⟩
  | .local _ .vmem, ⟨3, _⟩ => ⟨S1x128x64x128, .f32⟩
  | .local _ .vmem, ⟨4, _⟩ => ⟨S128, .f32⟩
  | .local _ .vmem, ⟨5, _⟩ => ⟨S128, .f32⟩
  | .local _ .vmem, ⟨6, _⟩ => ⟨S1x128x64x128, .f32⟩
  | .local _ .vmem, ⟨7, _⟩ => ⟨S1x128x64x128, .f32⟩
  | _, _ => ⟨S8x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S128_S128_0 : ∀ a, (![0] : Fin 1 → Nat) a + S128.size a ≤ S128.size a
  h_S128 : 0 < S128.numel
  shapeCasts_S128_S128x1x1 : S128.ShapeCasts S128x1x1
  inb_S1x128x64x128_S1x128x64x64_0_0_0_0 : ∀ a, (![0, 0, 0, 0] : Fin 4 → Nat) a + S1x128x64x64.size a ≤ S1x128x64x128.size a
  h_S1x128x64x64 : 0 < S1x128x64x64.numel
  shapeCasts_S1x128x64x64_S128x64x64 : S1x128x64x64.ShapeCasts S128x64x64
  shapeCasts_S128x64x64_S32x4x64x64 : S128x64x64.ShapeCasts S32x4x64x64
  reduces_S32x4x64x64_S32x4x64 : S32x4x64x64.Reduces [3] S32x4x64
  shapeCasts_S32x4x64_S32x4x64x1 : S32x4x64.ShapeCasts S32x4x64x1
  reduces_S32x4x64x1_S32x4x1 : S32x4x64x1.Reduces [2] S32x4x1
  shapeCasts_S32x4x1_S32x4x1x1 : S32x4x1.ShapeCasts S32x4x1x1
  reduces_S32x4x1x1_S32x1x1 : S32x4x1x1.Reduces [1] S32x1x1
  shapeCasts_S32x1x1_S32x1x1x1 : S32x1x1.ShapeCasts S32x1x1x1
  broadcasts_S32x1x1x1_S32x4x64x64 : S32x1x1x1.Broadcasts S32x4x64x64
  shapeCasts_S32x4x64x64_S128x64x64 : S32x4x64x64.ShapeCasts S128x64x64
  broadcasts_S128x1x1_S128x64x64 : S128x1x1.Broadcasts S128x64x64
  shapeCasts_S128x64x64_S1x128x64x64 : S128x64x64.ShapeCasts S1x128x64x64
  inb_S1x128x64x128_S1x128x64x64_0_0_0_64 : ∀ a, (![0, 0, 0, 64] : Fin 4 → Nat) a + S1x128x64x64.size a ≤ S1x128x64x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x128.size a ≤ S8x128x256x256.size a
  hwx0_0 : ∀ i : grid0.Coords, EltTy.bits .f32 = 32 ∨ (Rect.block (s := S8x128x256x256) S1x128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64x128.size a ≤ S8x128x256x256.size a
  hwx0_1 : ∀ i : grid0.Coords, EltTy.bits .f32 = 32 ∨ (Rect.block (s := S8x128x256x256) S1x128x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x64x128.size a ≤ S8x128x256x256.size a
  hwx0_4 : ∀ i : grid0.Coords, EltTy.bits .f32 = 32 ∨ (Rect.block (s := S8x128x256x256) S1x128x64x128.size (cc0_transform_4 i) (hinb0_4 i)).WholeWords (EltTy.packing .f32)

variable [Facts₀]

abbrev win0_0 : Pipeline.Window sig grid0 :=
  Pipeline.Window.ofSpec (Memref.whole main_arg0) S1x128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x128x256x256 : Shape := ⟨4, ![8, 128, 256, 256]⟩
abbrev S128 : Shape := ⟨1, ![128]⟩
abbrev S8x128x4x64x4x64 : Shape := ⟨6, ![8, 128, 4, 64, 4, 64]⟩
abbrev S8x4x4x128x64x64 : Shape := ⟨6, ![8, 4, 4, 128, 64, 64]⟩
abbrev S8x4x4x32x4x64x64 : Shape := ⟨7, ![8, 4, 4, 32, 4, 64, 64]⟩
abbrev S_ : Shape := ⟨0, ![]⟩
abbrev S8x4x4x32 : Shape := ⟨4, ![8, 4, 4, 32]⟩
abbrev S8x4x4x32x1x1x1 : Shape := ⟨7, ![8, 4, 4, 32, 1, 1, 1]⟩
abbrev S128x1x1 : Shape := ⟨3, ![128, 1, 1]⟩
abbrev S1x1x1x128x1x1 : Shape := ⟨6, ![1, 1, 1, 128, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S8x128x256x256, .f32⟩
  | .hbm, ⟨1, _⟩ => ⟨S8x128x256x256, .f32⟩
  | .hbm, ⟨2, _⟩ => ⟨S128, .f32⟩
  | .hbm, ⟨3, _⟩ => ⟨S128, .f32⟩
  | .hbm, ⟨4, _⟩ => ⟨S8x128x4x64x4x64, .f32⟩
  | .hbm, ⟨5, _⟩ => ⟨S8x4x4x128x64x64, .f32⟩
  | .hbm, ⟨6, _⟩ => ⟨S8x128x4x64x4x64, .f32⟩
  | .hbm, ⟨7, _⟩ => ⟨S8x4x4x128x64x64, .f32⟩
  | .hbm, ⟨8, _⟩ => ⟨S8x4x4x32x4x64x64, .f32⟩
  | .hbm, ⟨9, _⟩ => ⟨S_, .f32⟩
  | .hbm, ⟨10, _⟩ => ⟨S8x4x4x32, .f32⟩
  | .hbm, ⟨11, _⟩ => ⟨S8x4x4x32x1x1x1, .f32⟩
  | .hbm, ⟨12, _⟩ => ⟨S_, .f32⟩
  | .hbm, ⟨13, _⟩ => ⟨S8x4x4x32x1x1x1, .f32⟩
  | .hbm, ⟨14, _⟩ => ⟨S8x4x4x32x1x1x1, .f32⟩
  | .hbm, ⟨15, _⟩ => ⟨S_, .i32⟩
  | .hbm, ⟨16, _⟩ => ⟨S_, .f32⟩
  | .hbm, ⟨17, _⟩ => ⟨S8x4x4x32, .f32⟩
  | .hbm, ⟨18, _⟩ => ⟨S8x4x4x32x1x1x1, .f32⟩
  | .hbm, ⟨19, _⟩ => ⟨S_, .f32⟩
  | .hbm, ⟨20, _⟩ => ⟨S8x4x4x32x1x1x1, .f32⟩
  | .hbm, ⟨21, _⟩ => ⟨S8x4x4x32x1x1x1, .f32⟩
  | .hbm, ⟨22, _⟩ => ⟨S8x4x4x32x4x64x64, .f32⟩
  | .hbm, ⟨23, _⟩ => ⟨S8x4x4x32x4x64x64, .f32⟩
  | .hbm, ⟨24, _⟩ => ⟨S8x4x4x32x4x64x64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x4x4x32, .f32⟩
  | .hbm, ⟨30, _⟩ => ⟨S8x4x4x32x1x1x1, .f32⟩
  | .hbm, ⟨31, _⟩ => ⟨S8x4x4x32x1x1x1, .f32⟩
  | .hbm, ⟨32, _⟩ => ⟨S8x4x4x32x1x1x1, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S8x4x4x32x1x1x1, .f32⟩
  | .hbm, ⟨38, _⟩ => ⟨S8x4x4x32x1x1x1, .f32⟩
  | .hbm, ⟨39, _⟩ => ⟨S8x4x4x32x4x64x64, .f32⟩
  | .hbm, ⟨40, _⟩ => ⟨S8x4x4x32x4x64x64, .f32⟩
  | .hbm, ⟨41, _⟩ => ⟨S_, .f32⟩
  | .hbm, ⟨42, _⟩ => ⟨S8x4x4x32x1x1x1, .f32⟩
  | .hbm, ⟨43, _⟩ => ⟨S8x4x4x32x1x1x1, .f32⟩
  | .hbm, ⟨44, _⟩ => ⟨S8x4x4x32x1x1x1, .f32⟩
  | .hbm, ⟨45, _⟩ => ⟨S8x4x4x32x4x64x64, .f32⟩
  | .hbm, ⟨46, _⟩ => ⟨S8x4x4x32x4x64x64, .f32⟩
  | .hbm, ⟨47, _⟩ => ⟨S8x4x4x128x64x64, .f32⟩
  | .hbm, ⟨48, _⟩ => ⟨S128x1x1, .f32⟩
  | .hbm, ⟨49, _⟩ => ⟨S1x1x1x128x1x1, .f32⟩
  | .hbm, ⟨50, _⟩ => ⟨S8x4x4x128x64x64, .f32⟩
  | .hbm, ⟨51, _⟩ => ⟨S8x4x4x128x64x64, .f32⟩
  | .hbm, ⟨52, _⟩ => ⟨S128x1x1, .f32⟩
  | .hbm, ⟨53, _⟩ => ⟨S1x1x1x128x1x1, .f32⟩
  | .hbm, ⟨54, _⟩ => ⟨S8x4x4x128x64x64, .f32⟩
  | .hbm, ⟨55, _⟩ => ⟨S8x4x4x128x64x64, .f32⟩
  | .hbm, ⟨56, _⟩ => ⟨S8x4x4x128x64x64, .f32⟩
  | .hbm, ⟨57, _⟩ => ⟨S8x4x4x128x64x64, .f32⟩
  | .hbm, ⟨58, _⟩ => ⟨S_, .f32⟩
  | .hbm, ⟨59, _⟩ => ⟨S8x4x4x128x64x64, .f32⟩
  | .hbm, ⟨60, _⟩ => ⟨S8x4x4x128x64x64, .f32⟩
  | .hbm, ⟨61, _⟩ => ⟨S_, .f32⟩
  | .hbm, ⟨62, _⟩ => ⟨S8x4x4x128x64x64, .f32⟩
  | .hbm, ⟨63, _⟩ => ⟨S8x4x4x128x64x64, .f32⟩
  | .hbm, ⟨64, _⟩ => ⟨S8x4x4x128x64x64, .f32⟩
  | .hbm, ⟨65, _⟩ => ⟨S_, .f32⟩
  | .hbm, ⟨66, _⟩ => ⟨S8x4x4x128x64x64, .f32⟩
  | .hbm, ⟨67, _⟩ => ⟨S8x4x4x128x64x64, .f32⟩
  | .hbm, ⟨68, _⟩ => ⟨S8x4x4x128x64x64, .f32⟩
  | .hbm, ⟨69, _⟩ => ⟨S8x128x4x64x4x64, .f32⟩
  | .hbm, ⟨70, _⟩ => ⟨S8x128x256x256, .f32⟩
  | _, _ => ⟨S8x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_cst_3 : Ref sig .tc := ⟨.hbm, 33, rfl⟩
abbrev main_call0_v13 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v26 : Ref sig .tc := ⟨.hbm, 64, rfl⟩
abbrev main_cst_2 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩

abbrev nD : Nat := 1
abbrev τ : Topo := Topo.v7x

variable {F : FTy → Type} [FloatOps F]

class Facts₀ : Prop where
  shapeCasts_S8x128x256x256_S8x128x4x64x4x64 : S8x128x256x256.ShapeCasts S8x128x4x64x4x64
  transposes_S8x128x4x64x4x64_S8x4x4x128x64x64_0_2_4_1_3_5 : S8x128x4x64x4x64.Transposes [0, 2, 4, 1, 3, 5] S8x4x4x128x64x64
  shapeCasts_S8x4x4x128x64x64_S8x4x4x32x4x64x64 : S8x4x4x128x64x64.ShapeCasts S8x4x4x32x4x64x64
  reducesTo_S8x4x4x32x4x64x64_S8x4x4x32_d4_5_6 : S8x4x4x32x4x64x64.ReducesTo [4, 5, 6] S8x4x4x32
  h_S_ : 0 < S_.numel
  bcast_S8x4x4x32_S8x4x4x32x1x1x1_0_1_2_3 : S8x4x4x32.BroadcastsInDim S8x4x4x32x1x1x1 (![0, 1, 2, 3] : Fin 4 → Fin S8x4x4x32x1x1x1.rank)
  bcast_S_S8x4x4x32x1x1x1 : S_.BroadcastsInDim S8x4x4x32x1x1x1 (![] : Fin 0 → Fin S8x4x4x32x1x1x1.rank)
  bcast_S8x4x4x32x1x1x1_S8x4x4x32x4x64x64_0_1_2_3_4_5_6 : S8x4x4x32x1x1x1.BroadcastsInDim S8x4x4x32x4x64x64 (![0, 1, 2, 3, 4, 5, 6] : Fin 7 → Fin S8x4x4x32x4x64x64.rank)
  shapeCasts_S8x4x4x32x4x64x64_S8x4x4x128x64x64 : S8x4x4x32x4x64x64.ShapeCasts S8x4x4x128x64x64
  bcast_S128_S128x1x1_0 : S128.BroadcastsInDim S128x1x1 (![0] : Fin 1 → Fin S128x1x1.rank)
  bcast_S128x1x1_S1x1x1x128x1x1_3_4_5 : S128x1x1.BroadcastsInDim S1x1x1x128x1x1 (![3, 4, 5] : Fin 3 → Fin S1x1x1x128x1x1.rank)
  bcast_S1x1x1x128x1x1_S8x4x4x128x64x64_0_1_2_3_4_5 : S1x1x1x128x1x1.BroadcastsInDim S8x4x4x128x64x64 (![0, 1, 2, 3, 4, 5] : Fin 6 → Fin S8x4x4x128x64x64.rank)
  bcast_S_S8x4x4x128x64x64 : S_.BroadcastsInDim S8x4x4x128x64x64 (![] : Fin 0 → Fin S8x4x4x128x64x64.rank)
  transposes_S8x4x4x128x64x64_S8x128x4x64x4x64_0_3_1_4_2_5 : S8x4x4x128x64x64.Transposes [0, 3, 1, 4, 2, 5] S8x128x4x64x4x64
  shapeCasts_S8x128x4x64x4x64_S8x128x256x256 : S8x128x4x64x4x64.ShapeCasts S8x128x256x256

variable [Facts₀]

class Facts : Prop extends Facts₀ where

variable [Facts]
-- ==== Proof.Spec.lean ====
/-
  Per-patch group normalisation with a SiLU gate, as one function of the argument arrays.

  The image axes (256 x 256) are cut into a 4 x 4 grid of 64 x 64 patches; the 128 channels into 32 groups of 4.
  For a batch entry, a patch (i, j) and a group g, the statistics run over the group's 4 channels and the patch's
  64 x 64 pixels (16384 numbers):
      mean = (sum x) * 2^-14,      var = (sum (x - mean)^2) * 2^-14,
  and the result at channel c, pixel (h, w) of the patch is
      ((x - mean) * rsqrt (var + eps) * weight c + bias c) * (1 + y * logistic y).
  Everything is over the extended reals; the sum is written channel, then row, then column.
-/
import Idealize.ShloMosaic.PureOps.Ideal
import Idealize.ShloMosaic.Lib.ValueIdx

noncomputable section

namespace Cert.GroupNorm

open Idealize.ShloMosaic Idealize.ShloMosaic.ValueIdx

/-- One 64 x 64 patch of one batch entry, all 128 channels: channel, row, column. -/
abbrev Patch := Fin 128 → Fin 64 → Fin 64 → EReal

/-- Channel `cc` of group `g`. -/
def chan (g : Fin 32) (cc : Fin 4) : Fin 128 := ⟨4 * g.val + cc.val, by omega⟩

/-- The group of channel `c`. -/
def grp (c : Fin 128) : Fin 32 := ⟨c.val / 4, by omega⟩

/-- The place of channel `c` inside its group. -/
def sub (c : Fin 128) : Fin 4 := ⟨c.val % 4, by omega⟩

theorem chan_grp_sub (c : Fin 128) : chan (grp c) (sub c) = c := Fin.ext (by simp only [chan, grp, sub]; omega)
theorem grp_chan (g : Fin 32) (cc : Fin 4) : grp (chan g cc) = g := Fin.ext (by simp only [chan, grp]; omega)
theorem sub_chan (g : Fin 32) (cc : Fin 4) : sub (chan g cc) = cc := Fin.ext (by simp only [chan, sub]; omega)

/-- `1 / 16384`, the reciprocal of the count of a group's numbers in a patch, as the float word the kernel spells. -/
abbrev invCount : EReal := Ideal.ofBits .f32 0x38800000#32

/-- The variance's guard, the float nearest `1e-5`. -/
abbrev eps : EReal := Ideal.ofBits .f32 0x3727C5AC#32

/-- The sum of a patch over one group: its 4 channels, 64 rows, 64 columns. -/
def gsum (f : Patch) (g : Fin 32) : EReal := ∑ cc : Fin 4, ∑ h : Fin 64, ∑ w : Fin 64, f (chan g cc) h w

/-- The mean of group `g` over the patch. -/
def mean (xs : Patch) (g : Fin 32) : EReal := gsum xs g * invCount

/-- The (biased) variance of group `g` over the patch. -/
def var (xs : Patch) (g : Fin 32) : EReal :=
  gsum (fun c h w => (xs c h w - mean xs g) * (xs c h w - mean xs g)) g * invCount

/-- The result on one patch: normalise by the group's statistics, scale and shift per channel, gate by `1 + silu y`. -/
def P (xs ys : Patch) (wt bs : Fin 128 → EReal) (c : Fin 128) (h w : Fin 64) : EReal :=
  ((xs c h w - mean xs (grp c)) * Ideal.rsqrt (var xs (grp c) + eps) * wt c + bs c)
    * (1 + ys c h w * Ideal.logistic (ys c h w))

/-- The image arrays' shape: batch, channel, row, column. -/
abbrev SX : Shape := ⟨4, ![8, 128, 256, 256]⟩
/-- The per-channel vectors' shape. -/
abbrev SC : Shape := ⟨1, ![128]⟩

/-- Row (or column) `h` of patch `i` along an image axis. -/
def row (i : Fin 4) (h : Fin 64) : Fin 256 := ⟨64 * i.val + h.val, by omega⟩
/-- The patch an image row (or column) lies in. -/
def blk (r : Fin 256) : Fin 4 := ⟨r.val / 64, by omega⟩
/-- Its place inside that patch. -/
def off (r : Fin 256) : Fin 64 := ⟨r.val % 64, by omega⟩

theorem row_blk_off (r : Fin 256) : row (blk r) (off r) = r := Fin.ext (by simp only [row, blk, off]; omega)
theorem blk_row (i : Fin 4) (h : Fin 64) : blk (row i h) = i := Fin.ext (by simp only [row, blk]; omega)
theorem off_row (i : Fin 4) (h : Fin 64) : off (row i h) = h := Fin.ext (by simp only [row, off]; omega)

/-- Patch `(i, j)` of batch entry `b` of an image array. -/
def patch (X : SX.Idx → EReal) (b : Fin 8) (i j : Fin 4) : Patch := fun c h w => X (ix4 b c (row i h) (row j w))

/-- The channel vector as a function of the channel. -/
def chanVec (W : SC.Idx → EReal) : Fin 128 → EReal := fun c => W (ix1 c)

/-- THE RESULT ARRAY: at (b, c, r, s) the patch function of the patch (r / 64, s / 64) of batch entry `b`, at channel `c`
    and the pixel (r mod 64, s mod 64). -/
def G (X Y : SX.Idx → EReal) (Wt Bs : SC.Idx → EReal) : SX.Idx → EReal := fun q =>
  P (patch X (q 0) (blk (q 2)) (blk (q 3))) (patch Y (q 0) (blk (q 2)) (blk (q 3))) (chanVec Wt) (chanVec Bs)
    (q 1) (off (q 2)) (off (q 3))

theorem G_ix4 (X Y : SX.Idx → EReal) (Wt Bs : SC.Idx → EReal) (b : Fin 8) (c : Fin 128) (r s : Fin 256) :
    G X Y Wt Bs (ix4 b c r s)
      = P (patch X b (blk r) (blk s)) (patch Y b (blk r) (blk s)) (chanVec Wt) (chanVec Bs) c (off r) (off s) := rfl

/-! ## The float words the two programs spell, as numbers -/

/-- `1.0` denotes `1`. -/
theorem ofBits_one : Ideal.ofBits .f32 0x3F800000#32 = 1 := by
  simp [Ideal.ofBits, Ideal.ieee, -EReal.coe_mul]; norm_num

/-- `+0.0` denotes `0`. -/
theorem ofBits_zero : Ideal.ofBits .f32 0x00000000#32 = 0 := by
  simp [Ideal.ofBits, Ideal.ieee]

/-- `16384.0` denotes the real `16384`. -/
theorem ofBits_count : Ideal.ofBits .f32 0x46800000#32 = ((16384 : ℝ) : EReal) := by
  simp [Ideal.ofBits, Ideal.ieee, -EReal.coe_mul]; norm_num

/-- The kernel's word `6.10351563E-5` denotes exactly `1 / 16384` (a power of two). -/
theorem invCount_eq : invCount = ((1 / 16384 : ℝ) : EReal) := by
  simp [invCount, Ideal.ofBits, Ideal.ieee, -EReal.coe_mul]; norm_num

/-- Dividing by `16384.0` is multiplying by the kernel's reciprocal word, on every extended real. -/
theorem div_count (x : EReal) : Ideal.div x (Ideal.ofBits .f32 0x46800000#32) = x * invCount := by
  rw [ofBits_count, invCount_eq, Ideal.div_coe (by norm_num : (16384 : ℝ) ≠ 0)]

/-- The logistic function is the quotient `1 / (1 + e^(-y))`, the form the reference spells with the word `1.0`. -/
theorem logistic_eq (y : EReal) :
    Ideal.div (Ideal.ofBits .f32 0x3F800000#32) (Ideal.ofBits .f32 0x3F800000#32 + Ideal.exp (-y)) = Ideal.logistic y := by
  rw [ofBits_one]; rfl

end Cert.GroupNorm

end
-- ==== Proof.KerPay.lean ====
/-
  What the kernel body stores into each half of its output block, index by index.

  A grid step holds one batch entry's 128 channels over 64 rows and 128 columns: two 64 x 64 patches side by side.
  The body treats the two halves alike: it loads the half of the x block and of the y block, sums a group's
  4 channels x 64 x 64 numbers column first, then row, then channel, scales by 2^-14 for the mean, does the same
  with the squared deviations for the variance, multiplies the deviation by rsqrt (var + eps), scales and shifts
  per channel, and multiplies by 1 + y * logistic y. So each half's stored value is the patch function `P` of
  the two loaded halves.
-/
import proofs.«132345_j75144747811287_1_alg».proof.Proof.Gen.KernelIdeal.Skeleton
import proofs.«132345_j75144747811287_1_alg».proof.Proof.Spec
import Idealize.ShloMosaic.Lib.Pipeline.Value
import Idealize.ShloMosaic.Lib.ValueLayout
import Idealize.ShloMosaic.PureOps.Ideal.Laws

noncomputable section

namespace Cert.KernelSide

open Cert.KernelIdeal Cert.KernelIdeal.Gen Idealize.ShloMosaic Idealize.ShloMosaic.ValueIdx Cert.GroupNorm

/-- A loaded half block (1 x 128 x 64 x 64) as a patch. -/
def asPatch (v : Vec Ideal S1x128x64x64 .f32) : Patch := fun c h w => v (ix4 (0 : Fin 1) c h w)

namespace Pay

/-! ## The three single-axis sums, each read at explicit coordinates -/

/-- The sum over the columns: at (g, cc, h) it is the sum over w of the operand at (g, cc, h, w). -/
theorem sumCols_apply (v : FVec Ideal S32x4x64x64 .f32) (hr : S32x4x64x64.Reduces [3] S32x4x64)
    (hφ : FKind.Formats .f32) (hacc : (0x00000000#32 : BitVec 32) = FKind.add.neutral .f32 hφ)
    (g : Fin 32) (cc : Fin 4) (h : Fin 64) :
    multiReduction .add [3] S32x4x64 v 0x00000000#32 hr hφ hacc (ix3 g cc h) = ∑ w : Fin 64, v (ix4 g cc h w) :=
  (Ideal.multiReduction_add_single v _ hr hφ hacc (ix3 g cc h)).trans
    (Finset.sum_congr rfl fun w _ => congrArg v (funext fun a => Fin.ext (by
      match a with
      | ⟨0, _⟩ => rfl
      | ⟨1, _⟩ => rfl
      | ⟨2, _⟩ => rfl
      | ⟨3, _⟩ => rfl)))

/-- The sum over the rows of a one-column array: at (g, cc, 0) it is the sum over h of the operand at (g, cc, h, 0). -/
theorem sumRows_apply (v : FVec Ideal S32x4x64x1 .f32) (hr : S32x4x64x1.Reduces [2] S32x4x1)
    (hφ : FKind.Formats .f32) (hacc : (0x00000000#32 : BitVec 32) = FKind.add.neutral .f32 hφ)
    (g : Fin 32) (cc : Fin 4) :
    multiReduction .add [2] S32x4x1 v 0x00000000#32 hr hφ hacc (ix3 g cc (0 : Fin 1))
      = ∑ h : Fin 64, v (ix4 g cc h (0 : Fin 1)) :=
  (Ideal.multiReduction_add_single v _ hr hφ hacc (ix3 g cc (0 : Fin 1))).trans
    (Finset.sum_congr rfl fun h _ => congrArg v (funext fun a => Fin.ext (by
      match a with
      | ⟨0, _⟩ => rfl
      | ⟨1, _⟩ => rfl
      | ⟨2, _⟩ => rfl
      | ⟨3, _⟩ => rfl)))

/-- The sum over a group's channels: at (g, 0, 0) it is the sum over cc of the operand at (g, cc, 0, 0). -/
theorem sumChans_apply (v : FVec Ideal S32x4x1x1 .f32) (hr : S32x4x1x1.Reduces [1] S32x1x1)
    (hφ : FKind.Formats .f32) (hacc : (0x00000000#32 : BitVec 32) = FKind.add.neutral .f32 hφ)
    (g : Fin 32) :
    multiReduction .add [1] S32x1x1 v 0x00000000#32 hr hφ hacc (ix3 g (0 : Fin 1) (0 : Fin 1))
      = ∑ cc : Fin 4, v (ix4 g cc (0 : Fin 1) (0 : Fin 1)) :=
  (Ideal.multiReduction_add_single v _ hr hφ hacc (ix3 g (0 : Fin 1) (0 : Fin 1))).trans
    (Finset.sum_congr rfl fun cc _ => congrArg v (funext fun a => Fin.ext (by
      match a with
      | ⟨0, _⟩ => rfl
      | ⟨1, _⟩ => rfl
      | ⟨2, _⟩ => rfl
      | ⟨3, _⟩ => rfl)))

/-! ## The shape casts and broadcasts, each read at explicit coordinates -/

/-- A trailing unit axis added to a 32 x 4 x 64 array: (g, cc, h, 0) reads (g, cc, h). -/
theorem cast_32x4x64_apply (v : FVec Ideal S32x4x64 .f32) (hc : S32x4x64.ShapeCasts S32x4x64x1)
    (g : Fin 32) (cc : Fin 4) (h : Fin 64) :
    shapeCast S32x4x64x1 v hc (ix4 g cc h (0 : Fin 1)) = v (ix3 g cc h) :=
  shapeCast_apply v hc _ _ (by
    rw [Shape.rowMajor_val_three, Shape.rowMajor_val_four]
    show (g.val * 4 + cc.val) * 64 + h.val = ((g.val * 4 + cc.val) * 64 + h.val) * 1 + 0
    omega)

/-- A trailing unit axis added to a 32 x 4 x 1 array: (g, cc, 0, 0) reads (g, cc, 0). -/
theorem cast_32x4x1_apply (v : FVec Ideal S32x4x1 .f32) (hc : S32x4x1.ShapeCasts S32x4x1x1)
    (g : Fin 32) (cc : Fin 4) :
    shapeCast S32x4x1x1 v hc (ix4 g cc (0 : Fin 1) (0 : Fin 1)) = v (ix3 g cc (0 : Fin 1)) :=
  shapeCast_apply v hc _ _ (by
    rw [Shape.rowMajor_val_three, Shape.rowMajor_val_four]
    show (g.val * 4 + cc.val) * 1 + 0 = ((g.val * 4 + cc.val) * 1 + 0) * 1 + 0
    omega)

/-- A trailing unit axis added to a 32 x 1 x 1 array: (g, 0, 0, 0) reads (g, 0, 0). -/
theorem cast_32x1x1_apply (v : FVec Ideal S32x1x1 .f32) (hc : S32x1x1.ShapeCasts S32x1x1x1) (g : Fin 32) :
    shapeCast S32x1x1x1 v hc (ix4 g (0 : Fin 1) (0 : Fin 1) (0 : Fin 1)) = v (ix3 g (0 : Fin 1) (0 : Fin 1)) :=
  shapeCast_apply v hc _ _ (by
    rw [Shape.rowMajor_val_three, Shape.rowMajor_val_four]
    show (g.val * 1 + 0) * 1 + 0 = ((g.val * 1 + 0) * 1 + 0) * 1 + 0
    omega)

/-- The 128 channels split into 32 groups of 4: (g, cc, h, w) reads channel 4 g + cc at (h, w). -/
theorem cast_split_apply (v : FVec Ideal S128x64x64 .f32) (hc : S128x64x64.ShapeCasts S32x4x64x64)
    (g : Fin 32) (cc : Fin 4) (h w : Fin 64) :
    shapeCast S32x4x64x64 v hc (ix4 g cc h w) = v (ix3 (chan g cc) h w) :=
  shapeCast_apply v hc _ _ (by
    rw [Shape.rowMajor_val_three, Shape.rowMajor_val_four]
    show ((4 * g.val + cc.val) * 64 + h.val) * 64 + w.val = ((g.val * 4 + cc.val) * 64 + h.val) * 64 + w.val
    omega)

/-- The 32 groups of 4 merged back into 128 channels: (c, h, w) reads (c / 4, c mod 4, h, w). -/
theorem cast_merge_apply (v : FVec Ideal S32x4x64x64 .f32) (hc : S32x4x64x64.ShapeCasts S128x64x64)
    (c : Fin 128) (h w : Fin 64) :
    shapeCast S128x64x64 v hc (ix3 c h w) = v (ix4 (grp c) (sub c) h w) :=
  shapeCast_apply v hc _ _ (by
    rw [Shape.rowMajor_val_three, Shape.rowMajor_val_four]
    show ((c.val / 4 * 4 + c.val % 4) * 64 + h.val) * 64 + w.val = (c.val * 64 + h.val) * 64 + w.val
    omega)

/-- A channel vector as a 128 x 1 x 1 column: (c, 0, 0) reads c. -/
theorem cast_column_apply (v : Vec Ideal S128 .f32) (hc : S128.ShapeCasts S128x1x1) (c : Fin 128) :
    shapeCast S128x1x1 v hc (ix3 c (0 : Fin 1) (0 : Fin 1)) = v (ix1 c) :=
  shapeCast_apply v hc _ _ (by
    rw [Shape.rowMajor_val_three, Shape.rowMajor_val_one]
    show c.val = (c.val * 1 + 0) * 1 + 0
    omega)

/-- A per-group number spread over the group: (g, cc, h, w) reads (g, 0, 0, 0). -/
theorem spread_group_apply (v : FVec Ideal S32x1x1x1 .f32) (hb : S32x1x1x1.Broadcasts S32x4x64x64)
    (g : Fin 32) (cc : Fin 4) (h w : Fin 64) :
    broadcastTo S32x4x64x64 v hb (ix4 g cc h w) = v (ix4 g (0 : Fin 1) (0 : Fin 1) (0 : Fin 1)) :=
  broadcastTo_apply v hb _ _ fun a => by
    match a with
    | ⟨0, _⟩ => rfl
    | ⟨1, _⟩ => rfl
    | ⟨2, _⟩ => rfl
    | ⟨3, _⟩ => rfl

/-- A per-channel column spread over the pixels: (c, h, w) reads (c, 0, 0). -/
theorem spread_column_apply (v : FVec Ideal S128x1x1 .f32) (hb : S128x1x1.Broadcasts S128x64x64)
    (c : Fin 128) (h w : Fin 64) :
    broadcastTo S128x64x64 v hb (ix3 c h w) = v (ix3 c (0 : Fin 1) (0 : Fin 1)) :=
  broadcastTo_apply v hb _ _ fun a => by
    match a with
    | ⟨0, _⟩ => rfl
    | ⟨1, _⟩ => rfl
    | ⟨2, _⟩ => rfl

/-! ## A group's sum as the body takes it: columns, then rows, then the group's channels -/

/-- The three nested single-axis sums, each followed by the cast that puts back a unit axis. -/
def stat (v : FVec Ideal S32x4x64x64 .f32) : FVec Ideal S32x1x1x1 .f32 :=
  shapeCast S32x1x1x1
    (multiReduction .add [1] S32x1x1
      (shapeCast S32x4x1x1
        (multiReduction .add [2] S32x4x1
          (shapeCast S32x4x64x1
            (multiReduction .add [3] S32x4x64 v 0x00000000#32 reduces_S32x4x64x64_S32x4x64 (.inl rfl) rfl)
            shapeCasts_S32x4x64_S32x4x64x1)
          0x00000000#32 reduces_S32x4x64x1_S32x4x1 (.inl rfl) rfl)
        shapeCasts_S32x4x1_S32x4x1x1)
      0x00000000#32 reduces_S32x4x1x1_S32x1x1 (.inl rfl) rfl)
    shapeCasts_S32x1x1_S32x1x1x1

/-- At group g it is the sum over the group's 4 channels, 64 rows and 64 columns. -/
theorem stat_apply (v : FVec Ideal S32x4x64x64 .f32) (g : Fin 32) :
    stat v (ix4 g (0 : Fin 1) (0 : Fin 1) (0 : Fin 1)) = ∑ cc : Fin 4, ∑ h : Fin 64, ∑ w : Fin 64, v (ix4 g cc h w) := by
  unfold stat
  refine (cast_32x1x1_apply _ _ g).trans ?_
  refine (sumChans_apply _ _ _ _ g).trans ?_
  refine Finset.sum_congr rfl fun cc _ => ?_
  refine (cast_32x4x1_apply _ _ g cc).trans ?_
  refine (sumRows_apply _ _ _ _ g cc).trans ?_
  refine Finset.sum_congr rfl fun h _ => ?_
  refine (cast_32x4x64_apply _ _ g cc h).trans ?_
  exact sumCols_apply _ _ _ _ g cc h

/-- When the array's group g is a patch's group g, that sum is the patch's group sum. -/
theorem stat_eq_gsum (v : FVec Ideal S32x4x64x64 .f32) (f : Patch) (g : Fin 32)
    (hv : ∀ (cc : Fin 4) (h w : Fin 64), v (ix4 g cc h w) = f (chan g cc) h w) :
    stat v (ix4 g (0 : Fin 1) (0 : Fin 1) (0 : Fin 1)) = gsum f g :=
  (stat_apply v g).trans
    (Finset.sum_congr rfl fun cc _ => Finset.sum_congr rfl fun h _ => Finset.sum_congr rfl fun w _ => hv cc h w)

/-! ## The deviation from the group's mean, and the normalised value -/

/-- The array minus its group's mean (the group sum times 2^-14), spread back over the group. -/
def dev (v : FVec Ideal S32x4x64x64 .f32) : FVec Ideal S32x4x64x64 .f32 :=
  subf v (broadcastTo S32x4x64x64
    (mulf (stat v) (broadcast S32x1x1x1 (Scalar.ofBits .f32 0x38800000#32 : Ideal .f32)))
    broadcasts_S32x1x1x1_S32x4x64x64)

/-- The deviation times rsqrt (variance + eps), the variance being the group sum of the squared deviations times 2^-14. -/
def normed (v : FVec Ideal S32x4x64x64 .f32) : FVec Ideal S32x4x64x64 .f32 :=
  mulf (dev v) (broadcastTo S32x4x64x64
    (rsqrt (addf
      (mulf (stat (mulf (dev v) (dev v))) (broadcast S32x1x1x1 (Scalar.ofBits .f32 0x38800000#32 : Ideal .f32)))
      (broadcast S32x1x1x1 (Scalar.ofBits .f32 0x3727C5AC#32 : Ideal .f32))))
    broadcasts_S32x1x1x1_S32x4x64x64)

/-- The deviation at (g, cc, h, w) is the patch's entry minus the patch's mean over group g. -/
theorem dev_apply (v : FVec Ideal S32x4x64x64 .f32) (f : Patch) (g : Fin 32)
    (hv : ∀ (cc : Fin 4) (h w : Fin 64), v (ix4 g cc h w) = f (chan g cc) h w)
    (cc : Fin 4) (h w : Fin 64) :
    dev v (ix4 g cc h w) = f (chan g cc) h w - mean f g := by
  unfold dev
  refine (subf_apply _ _ _).trans ?_
  refine congrArg₂ (· - ·) (hv cc h w) ?_
  refine (spread_group_apply _ _ g cc h w).trans ?_
  refine (mulf_apply _ _ _).trans ?_
  exact congrArg (· * invCount) (stat_eq_gsum v f g hv)

/-- The normalised value at (g, cc, h, w): the variance's summands are the squared deviations from the mean of the
    same group g, which is what the patch's variance sums. -/
theorem normed_apply (v : FVec Ideal S32x4x64x64 .f32) (f : Patch) (g : Fin 32)
    (hv : ∀ (cc : Fin 4) (h w : Fin 64), v (ix4 g cc h w) = f (chan g cc) h w)
    (cc : Fin 4) (h w : Fin 64) :
    normed v (ix4 g cc h w) = (f (chan g cc) h w - mean f g) * Ideal.rsqrt (var f g + eps) := by
  unfold normed
  refine (mulf_apply _ _ _).trans ?_
  refine congrArg₂ (· * ·) (dev_apply v f g hv cc h w) ?_
  refine (spread_group_apply _ _ g cc h w).trans ?_
  show Ideal.rsqrt (stat (mulf (dev v) (dev v)) (ix4 g (0 : Fin 1) (0 : Fin 1) (0 : Fin 1)) * invCount + eps) = _
  refine congrArg (fun s => Ideal.rsqrt (s * invCount + eps)) ?_
  exact stat_eq_gsum _ (fun c h w => (f c h w - mean f g) * (f c h w - mean f g)) g fun cc' h' w' =>
    (mulf_apply _ _ _).trans (congrArg₂ (· * ·) (dev_apply v f g hv cc' h' w') (dev_apply v f g hv cc' h' w'))

/-! ## The stored value -/

/-- A loaded half block as a 32 x 4 x 64 x 64 array: the unit axis dropped, the channels split into groups of 4. -/
def grouped (xs : Vec Ideal S1x128x64x64 .f32) : FVec Ideal S32x4x64x64 .f32 :=
  shapeCast S32x4x64x64 (shapeCast S128x64x64 xs shapeCasts_S1x128x64x64_S128x64x64) shapeCasts_S128x64x64_S32x4x64x64

/-- Its entry at (g, cc, h, w) is the patch's entry at channel 4 g + cc. -/
theorem grouped_apply (xs : Vec Ideal S1x128x64x64 .f32) (g : Fin 32) (cc : Fin 4) (h w : Fin 64) :
    grouped xs (ix4 g cc h w) = asPatch xs (chan g cc) h w :=
  (cast_split_apply _ _ g cc h w).trans (shapeCast_1abc_abc_apply xs _ (chan g cc) h w)

/-- The groups merged back into channels, times the weight column, plus the bias column. -/
def affine (wc bc : FVec Ideal S128x1x1 .f32) (n : FVec Ideal S32x4x64x64 .f32) : FVec Ideal S128x64x64 .f32 :=
  addf
    (mulf (shapeCast S128x64x64 n shapeCasts_S32x4x64x64_S128x64x64)
      (broadcastTo S128x64x64 wc broadcasts_S128x1x1_S128x64x64))
    (broadcastTo S128x64x64 bc broadcasts_S128x1x1_S128x64x64)

/-- Times 1 + y * logistic y, with the leading unit axis put back. -/
def gated (y a : FVec Ideal S128x64x64 .f32) : FVec Ideal S1x128x64x64 .f32 :=
  shapeCast S1x128x64x64
    (mulf a (addf (broadcast S128x64x64 (Scalar.ofBits .f32 0x3F800000#32 : Ideal .f32)) (mulf y (logistic y))))
    shapeCasts_S128x64x64_S1x128x64x64

/-- What the body stores for one half, from the loaded weight, bias, x half and y half. -/
def stored (wv bv : Vec Ideal S128 .f32) (xs ys : Vec Ideal S1x128x64x64 .f32) : FVec Ideal S1x128x64x64 .f32 :=
  gated (shapeCast S128x64x64 ys shapeCasts_S1x128x64x64_S128x64x64)
    (affine (shapeCast S128x1x1 wv shapeCasts_S128_S128x1x1) (shapeCast S128x1x1 bv shapeCasts_S128_S128x1x1)
      (normed (grouped xs)))

/-- At (0, c, h, w) it is the patch function: channel c lies in group c / 4 at place c mod 4, and 4 (c / 4) + c mod 4 = c;
    the word 1.0 denotes 1. -/
theorem stored_apply (wv bv : Vec Ideal S128 .f32) (xs ys : Vec Ideal S1x128x64x64 .f32) (c : Fin 128) (h w : Fin 64) :
    stored wv bv xs ys (ix4 (0 : Fin 1) c h w) = P (asPatch xs) (asPatch ys) (chanVec wv) (chanVec bv) c h w := by
  have hy : shapeCast S128x64x64 ys shapeCasts_S1x128x64x64_S128x64x64 (ix3 c h w) = asPatch ys c h w :=
    shapeCast_1abc_abc_apply ys _ c h w
  unfold stored gated affine P
  refine (shapeCast_abc_1abc_apply _ _ (0 : Fin 1) c h w).trans ?_
  refine (mulf_apply _ _ _).trans ?_
  refine congrArg₂ (· * ·) ?_ ?_
  · refine (addf_apply _ _ _).trans ?_
    refine congrArg₂ (· + ·) ?_ ?_
    · refine (mulf_apply _ _ _).trans ?_
      refine congrArg₂ (· * ·) ?_ ?_
      · refine (cast_merge_apply _ _ c h w).trans ?_
        refine (normed_apply (grouped xs) (asPatch xs) (grp c)
          (fun cc h' w' => grouped_apply xs (grp c) cc h' w') (sub c) h w).trans ?_
        rw [chan_grp_sub]
      · exact (spread_column_apply _ _ c h w).trans (cast_column_apply wv _ c)
    · exact (spread_column_apply _ _ c h w).trans (cast_column_apply bv _ c)
  · refine (addf_apply _ _ _).trans ?_
    refine congrArg₂ (· + ·) ofBits_one ?_
    refine (mulf_apply _ _ _).trans ?_
    exact congrArg₂ (· * ·) hy (congrArg Ideal.logistic hy)

end Pay

/-- The left half's stored value at (0, c, h, w) is the patch function of the loaded halves. -/
theorem pay_left (wv bv : Vec Ideal S128 .f32) (xs ys : Vec Ideal S1x128x64x64 .f32) (c : Fin 128) (h w : Fin 64) :
    k0_pay6 (k0_pay4 ys) (k0_pay5 wv bv xs) (ix4 (0 : Fin 1) c h w)
      = P (asPatch xs) (asPatch ys) (chanVec wv) (chanVec bv) c h w :=
  Pay.stored_apply wv bv xs ys c h w

/-- The right half's stored value at (0, c, h, w) is the same function of its loaded halves. -/
theorem pay_right (wv bv : Vec Ideal S128 .f32) (xs ys : Vec Ideal S1x128x64x64 .f32) (c : Fin 128) (h w : Fin 64) :
    k0_pay1 (k0_pay2 wv) (k0_pay3 bv) (k0_pay7 ys) (k0_pay8 xs) (ix4 (0 : Fin 1) c h w)
      = P (asPatch xs) (asPatch ys) (chanVec wv) (chanVec bv) c h w :=
  Pay.stored_apply wv bv xs ys c h w

end Cert.KernelSide

end
-- ==== Proof.KerBlocks.lean ====
/-
  From the blocks a grid step writes back to the whole result array.

  Grid step (b, i, jj) owns the block of batch entry b, all channels, rows 64 i .. 64 i + 63, columns
  128 jj .. 128 jj + 127: patches (i, 2 jj) and (i, 2 jj + 1). Its left half is the patch function of patch
  (i, 2 jj) of x and y, its right half that of patch (i, 2 jj + 1); the 64 blocks tile the array; so the array
  after the run is `G` of the argument arrays.
-/
import proofs.«132345_j75144747811287_1_alg».proof.Proof.Gen.KernelIdeal.Value
import proofs.«132345_j75144747811287_1_alg».proof.Proof.KerPay

noncomputable section

namespace Cert.KernelSide

open Cert.KernelIdeal Cert.KernelIdeal.Gen Idealize.ShloMosaic Idealize.ShloMosaic.TcCoe Idealize.SL.Sem
open Idealize.ShloMosaic.ValueIdx Cert.GroupNorm
open Idealize.ShloMosaic.Pipeline (Dat)

variable (m : (ℓ : Loc nD τ sig) → Buf (Elt Ideal) ℓ) (ρ : Dev nD → PrngReg)

/-- Column `v` of the block of column index `jj`: the block spans 128 image columns. -/
def col (jj : Fin 2) (v : Fin 128) : Fin 256 := ⟨128 * jj.val + v.val, by omega⟩

theorem hz1 : (![0] : Fin 1 → Nat) = fun _ => 0 := funext fun a => by fin_cases a <;> rfl

/-- The block function of grid step (b, i, jj): entry (0, c, h, v) is the result array's (b, c, 64 i + h, 128 jj + v). -/
def blockFn (X Y : SX.Idx → EReal) (Wt Bs : SC.Idx → EReal) (b : Fin 8) (i : Fin 4) (jj : Fin 2) :
    S1x128x64x128.Idx → EReal := fun y => G X Y Wt Bs (ix4 b (y 1) (row i (y 2)) (col jj (y 3)))

/-- The left half of a block whose entries are the array's, as a patch: patch (i, 2 jj). -/
theorem asPatch_left (X : SX.Idx → EReal) (b : Fin 8) (i : Fin 4) (jj : Fin 2) (x0 : Vec Ideal S1x128x64x128 .f32)
    (h0 : ∀ y, x0 y = X (ix4 b (y 1) (row i (y 2)) (col jj (y 3)))) :
    asPatch (View.ld x0 r0_1) = patch X b i ⟨2 * jj.val, by omega⟩ := by
  funext c h w
  show x0 (r0_1.idx (ix4 (0 : Fin 1) c h w)) = X (ix4 b c (row i h) (row ⟨2 * jj.val, by omega⟩ w))
  rw [h0]
  congr 1
  funext a
  apply Fin.ext
  match a with
  | ⟨0, _⟩ => rfl
  | ⟨1, _⟩ => show 0 + 1 * c.val = c.val; omega
  | ⟨2, _⟩ => show 64 * i.val + (0 + 1 * h.val) = 64 * i.val + h.val; omega
  | ⟨3, _⟩ => show 128 * jj.val + (0 + 1 * w.val) = 64 * (2 * jj.val) + w.val; omega

/-- The right half of such a block, as a patch: patch (i, 2 jj + 1). -/
theorem asPatch_right (X : SX.Idx → EReal) (b : Fin 8) (i : Fin 4) (jj : Fin 2) (x0 : Vec Ideal S1x128x64x128 .f32)
    (h0 : ∀ y, x0 y = X (ix4 b (y 1) (row i (y 2)) (col jj (y 3)))) :
    asPatch (View.ld x0 r0_2) = patch X b i ⟨2 * jj.val + 1, by omega⟩ := by
  funext c h w
  show x0 (r0_2.idx (ix4 (0 : Fin 1) c h w)) = X (ix4 b c (row i h) (row ⟨2 * jj.val + 1, by omega⟩ w))
  rw [h0]
  congr 1
  funext a
  apply Fin.ext
  match a with
  | ⟨0, _⟩ => rfl
  | ⟨1, _⟩ => show 0 + 1 * c.val = c.val; omega
  | ⟨2, _⟩ => show 64 * i.val + (0 + 1 * h.val) = 64 * i.val + h.val; omega
  | ⟨3, _⟩ => show 128 * jj.val + (64 + 1 * w.val) = 64 * (2 * jj.val + 1) + w.val; omega

/-- The block function at entry (0, c, h, w) of the left half: the patch function of patch (i, 2 jj). -/
theorem blockFn_left (X Y : SX.Idx → EReal) (Wt Bs : SC.Idx → EReal) (b : Fin 8) (i : Fin 4) (jj : Fin 2)
    (c : Fin 128) (h w : Fin 64) :
    blockFn X Y Wt Bs b i jj (r0_1.emb (ix4 (0 : Fin 1) c h w))
      = P (patch X b i ⟨2 * jj.val, by omega⟩) (patch Y b i ⟨2 * jj.val, by omega⟩) (chanVec Wt) (chanVec Bs) c h w := by
  have e : ix4 b (r0_1.emb (ix4 (0 : Fin 1) c h w) 1) (row i (r0_1.emb (ix4 (0 : Fin 1) c h w) 2))
        (col jj (r0_1.emb (ix4 (0 : Fin 1) c h w) 3))
      = ix4 b c (row i h) (row ⟨2 * jj.val, by omega⟩ w) := by
    funext a
    apply Fin.ext
    match a with
    | ⟨0, _⟩ => rfl
    | ⟨1, _⟩ => show 0 + 1 * c.val = c.val; omega
    | ⟨2, _⟩ => show 64 * i.val + (0 + 1 * h.val) = 64 * i.val + h.val; omega
    | ⟨3, _⟩ => show 128 * jj.val + (0 + 1 * w.val) = 64 * (2 * jj.val) + w.val; omega
  refine (congrArg (G X Y Wt Bs) e).trans ?_
  rw [G_ix4, blk_row, blk_row, off_row, off_row]

/-- The block function at entry (0, c, h, 64 + w), of the right half: the patch function of patch (i, 2 jj + 1). -/
theorem blockFn_right (X Y : SX.Idx → EReal) (Wt Bs : SC.Idx → EReal) (b : Fin 8) (i : Fin 4) (jj : Fin 2)
    (c : Fin 128) (h w : Fin 64) :
    blockFn X Y Wt Bs b i jj (r0_2.emb (ix4 (0 : Fin 1) c h w))
      = P (patch X b i ⟨2 * jj.val + 1, by omega⟩) (patch Y b i ⟨2 * jj.val + 1, by omega⟩) (chanVec Wt) (chanVec Bs) c h w := by
  have e : ix4 b (r0_2.emb (ix4 (0 : Fin 1) c h w) 1) (row i (r0_2.emb (ix4 (0 : Fin 1) c h w) 2))
        (col jj (r0_2.emb (ix4 (0 : Fin 1) c h w) 3))
      = ix4 b c (row i h) (row ⟨2 * jj.val + 1, by omega⟩ w) := by
    funext a
    apply Fin.ext
    match a with
    | ⟨0, _⟩ => rfl
    | ⟨1, _⟩ => show 0 + 1 * c.val = c.val; omega
    | ⟨2, _⟩ => show 64 * i.val + (0 + 1 * h.val) = 64 * i.val + h.val; omega
    | ⟨3, _⟩ => show 128 * jj.val + (64 + 1 * w.val) = 64 * (2 * jj.val + 1) + w.val; omega
  refine (congrArg (G X Y Wt Bs) e).trans ?_
  rw [G_ix4, blk_row, blk_row, off_row, off_row]

/-- A half block's index is `ix4` of its coordinates, the first being 0. -/
theorem half_ix (x : S1x128x64x64.Idx) : ∃ (c : Fin 128) (h w : Fin 64), x = ix4 (0 : Fin 1) c h w := by
  refine ⟨x 1, x 2, x 3, ?_⟩
  funext a
  match a with
  | ⟨0, _⟩ => exact Fin.ext (by have h : (x 0).val < 1 := (x 0).isLt; show (x 0).val = 0; omega)
  | ⟨1, _⟩ => rfl
  | ⟨2, _⟩ => rfl
  | ⟨3, _⟩ => rfl

/-- WHAT THE BODY LEAVES in the output block, when its input blocks hold the arrays' entries of grid step (b, i, jj):
    the block function. Its two stores are the block function's two halves, and they tile the block. -/
theorem out_apply (X Y : SX.Idx → EReal) (Wt Bs : SC.Idx → EReal) (b : Fin 8) (i : Fin 4) (jj : Fin 2)
    (x0 x1 : Vec Ideal S1x128x64x128 .f32) (x2 x3 : Vec Ideal S128 .f32)
    (h0 : ∀ y, x0 y = X (ix4 b (y 1) (row i (y 2)) (col jj (y 3))))
    (h1 : ∀ y, x1 y = Y (ix4 b (y 1) (row i (y 2)) (col jj (y 3))))
    (h2 : x2 = Wt) (h3 : x3 = Bs) (y : S1x128x64x128.Idx) :
    out0_4 x0 x1 x2 x3 y = blockFn X Y Wt Bs b i jj y := by
  unfold out0_4
  rw [View.ld_unit_zero hz1, View.ld_unit_zero hz1, h2, h3]
  refine View.canon_apply_of_pieces (Val := Elt Ideal) (blockFn X Y Wt Bs b i jj) _ (fun p hp x => ?_) y (cover0_4 _ _ y)
  simp only [List.mem_cons, List.mem_nil_iff, or_false] at hp
  rcases hp with rfl | rfl
  · obtain ⟨c, h, w, rfl⟩ := half_ix x
    refine (pay_right _ _ _ _ c h w).trans ?_
    rw [asPatch_right X b i jj x0 h0, asPatch_right Y b i jj x1 h1]
    exact (blockFn_right X Y Wt Bs b i jj c h w).symm
  · obtain ⟨c, h, w, rfl⟩ := half_ix x
    refine (pay_left _ _ _ _ c h w).trans ?_
    rw [asPatch_left X b i jj x0 h0, asPatch_left Y b i jj x1 h1]
    exact (blockFn_left X Y Wt Bs b i jj c h w).symm

/-- The printed index maps, decided over the 64 grid steps: the image windows 0, 1, 4 share one block index, whose
    batch, row-block and column-block entries stay in range and whose channel entry is 0; the channel vectors'
    windows stay at block 0. -/
theorem idx_facts : ∀ t : Fin cfg0.N,
    win0_4.index t (0 : Fin 4) ≤ 7 ∧ win0_4.index t (1 : Fin 4) = 0
    ∧ win0_4.index t (2 : Fin 4) ≤ 3 ∧ win0_4.index t (3 : Fin 4) ≤ 1
    ∧ win0_0.index t (0 : Fin 4) = win0_4.index t (0 : Fin 4) ∧ win0_0.index t (1 : Fin 4) = 0
    ∧ win0_0.index t (2 : Fin 4) = win0_4.index t (2 : Fin 4) ∧ win0_0.index t (3 : Fin 4) = win0_4.index t (3 : Fin 4)
    ∧ win0_1.index t (0 : Fin 4) = win0_4.index t (0 : Fin 4) ∧ win0_1.index t (1 : Fin 4) = 0
    ∧ win0_1.index t (2 : Fin 4) = win0_4.index t (2 : Fin 4) ∧ win0_1.index t (3 : Fin 4) = win0_4.index t (3 : Fin 4)
    ∧ win0_2.index t (0 : Fin 1) = 0 ∧ win0_3.index t (0 : Fin 1) = 0 :=
  (by decide +kernel : ∀ t : Fin grid0.N, _)

/-- Every block of the array is some grid step's. -/
theorem idx_onto : ∀ (q0 : Fin 8) (q2 : Fin 4) (q3 : Fin 2), ∃ t : Fin cfg0.N, win0_4.index t = ![q0.val, 0, q2.val, q3.val] :=
  (by decide +kernel : ∀ (q0 : Fin 8) (q2 : Fin 4) (q3 : Fin 2), ∃ t : Fin grid0.N, win0_4.index t = ![q0.val, 0, q2.val, q3.val])

/-- The batch entry, row block and column block of grid step `t`. -/
def stepB (t : Fin cfg0.N) : Fin 8 := ⟨win0_4.index t (0 : Fin 4), by have := (idx_facts t).1; omega⟩
def stepI (t : Fin cfg0.N) : Fin 4 := ⟨win0_4.index t (2 : Fin 4), by have := (idx_facts t).2.2.1; omega⟩
def stepJ (t : Fin cfg0.N) : Fin 2 := ⟨win0_4.index t (3 : Fin 4), by have := (idx_facts t).2.2.2.1; omega⟩

/-- The x window's block at grid step `t` holds the x array's entries of that step's block. -/
theorem iblk0_apply (c : Dev nD) (t : Fin cfg0.N) (y : S1x128x64x128.Idx) :
    (iblk m c 0 t : Vec Ideal S1x128x64x128 .f32) y
      = (V m c main_arg0 : SX.Idx → EReal) (ix4 (stepB t) (y 1) (row (stepI t) (y 2)) (col (stepJ t) (y 3))) := by
  obtain ⟨-, -, -, -, e0, e1, e2, e3, -⟩ := idx_facts t
  show V m c main_arg0 (((cfg0.win 0).blk t).view.emb y) = V m c main_arg0 _
  congr 1
  funext a
  apply Fin.ext
  match a with
  | ⟨0, _⟩ => show win0_0.index t (0 : Fin 4) * 1 + 1 * (y 0).val = win0_4.index t (0 : Fin 4); have hy : (y 0).val < 1 := (y 0).isLt; omega
  | ⟨1, _⟩ => show win0_0.index t (1 : Fin 4) * 128 + 1 * (y 1).val = (y 1).val; omega
  | ⟨2, _⟩ => show win0_0.index t (2 : Fin 4) * 64 + 1 * (y 2).val = 64 * win0_4.index t (2 : Fin 4) + (y 2).val; omega
  | ⟨3, _⟩ => show win0_0.index t (3 : Fin 4) * 128 + 1 * (y 3).val = 128 * win0_4.index t (3 : Fin 4) + (y 3).val; omega

/-- The y window's block at grid step `t` holds the y array's entries of that step's block. -/
theorem iblk1_apply (c : Dev nD) (t : Fin cfg0.N) (y : S1x128x64x128.Idx) :
    (iblk m c 1 t : Vec Ideal S1x128x64x128 .f32) y
      = (V m c main_arg1 : SX.Idx → EReal) (ix4 (stepB t) (y 1) (row (stepI t) (y 2)) (col (stepJ t) (y 3))) := by
  obtain ⟨-, -, -, -, -, -, -, -, e0, e1, e2, e3, -⟩ := idx_facts t
  show V m c main_arg1 (((cfg0.win 1).blk t).view.emb y) = V m c main_arg1 _
  congr 1
  funext a
  apply Fin.ext
  match a with
  | ⟨0, _⟩ => show win0_1.index t (0 : Fin 4) * 1 + 1 * (y 0).val = win0_4.index t (0 : Fin 4); have hy : (y 0).val < 1 := (y 0).isLt; omega
  | ⟨1, _⟩ => show win0_1.index t (1 : Fin 4) * 128 + 1 * (y 1).val = (y 1).val; omega
  | ⟨2, _⟩ => show win0_1.index t (2 : Fin 4) * 64 + 1 * (y 2).val = 64 * win0_4.index t (2 : Fin 4) + (y 2).val; omega
  | ⟨3, _⟩ => show win0_1.index t (3 : Fin 4) * 128 + 1 * (y 3).val = 128 * win0_4.index t (3 : Fin 4) + (y 3).val; omega

/-- The weight window's block at every grid step is the whole weight vector. -/
theorem iblk2_eq (c : Dev nD) (t : Fin cfg0.N) :
    (iblk m c 2 t : Vec Ideal S128 .f32) = (V m c main_arg2 : SC.Idx → EReal) := by
  obtain ⟨-, -, -, -, -, -, -, -, -, -, -, -, e, -⟩ := idx_facts t
  funext y
  show V m c main_arg2 (((cfg0.win 2).blk t).view.emb y) = V m c main_arg2 y
  congr 1
  funext a
  apply Fin.ext
  match a with
  | ⟨0, _⟩ => show win0_2.index t (0 : Fin 1) * 128 + 1 * (y 0).val = (y 0).val; omega

/-- The bias window's block at every grid step is the whole bias vector. -/
theorem iblk3_eq (c : Dev nD) (t : Fin cfg0.N) :
    (iblk m c 3 t : Vec Ideal S128 .f32) = (V m c main_arg3 : SC.Idx → EReal) := by
  obtain ⟨-, -, -, -, -, -, -, -, -, -, -, -, -, e⟩ := idx_facts t
  funext y
  show V m c main_arg3 (((cfg0.win 3).blk t).view.emb y) = V m c main_arg3 y
  congr 1
  funext a
  apply Fin.ext
  match a with
  | ⟨0, _⟩ => show win0_3.index t (0 : Fin 1) * 128 + 1 * (y 0).val = (y 0).val; omega

/-- WHAT GRID STEP `t` WRITES BACK is block `t` of `G` of the argument arrays as the region finds them. -/
theorem flushed_eq (c : Dev nD) (t : Fin cfg0.N) :
    (dats m 0 c).flushed 4 t
      = ((cfg0.win 4).blk t).view.read (Elt Ideal)
          (G (V m c main_arg0) (V m c main_arg1) (V m c main_arg2) (V m c main_arg3)) := by
  rw [Cert.KernelIdeal.Value.flushed4]
  funext y
  show out0_4 (iblk m c 0 t) (iblk m c 1 t) (iblk m c 2 t) (iblk m c 3 t) y
    = G (V m c main_arg0) (V m c main_arg1) (V m c main_arg2) (V m c main_arg3) (((cfg0.win 4).blk t).view.emb y)
  refine (out_apply (V m c main_arg0) (V m c main_arg1) (V m c main_arg2) (V m c main_arg3) (stepB t) (stepI t) (stepJ t)
    _ _ _ _ (iblk0_apply m c t) (iblk1_apply m c t) (iblk2_eq m c t) (iblk3_eq m c t) y).trans ?_
  obtain ⟨-, e1, -⟩ := idx_facts t
  show G (V m c main_arg0) (V m c main_arg1) (V m c main_arg2) (V m c main_arg3) _ = _
  congr 1
  funext a
  apply Fin.ext
  match a with
  | ⟨0, _⟩ => show win0_4.index t (0 : Fin 4) = win0_4.index t (0 : Fin 4) * 1 + 1 * (y 0).val; have hy : (y 0).val < 1 := (y 0).isLt; omega
  | ⟨1, _⟩ => show (y 1).val = win0_4.index t (1 : Fin 4) * 128 + 1 * (y 1).val; omega
  | ⟨2, _⟩ => show 64 * win0_4.index t (2 : Fin 4) + (y 2).val = win0_4.index t (2 : Fin 4) * 64 + 1 * (y 2).val; omega
  | ⟨3, _⟩ => show 128 * win0_4.index t (3 : Fin 4) + (y 3).val = win0_4.index t (3 : Fin 4) * 128 + 1 * (y 3).val; omega

/-- An index of the array is in grid step `t`'s block iff each coordinate is in the block's range on its axis. -/
theorem mem_blk (t : Fin cfg0.N) (q : S8x128x256x256.Idx) :
    q ∈ ((cfg0.win 4).blk t).view.set
      ↔ ∀ a : Fin 4, win0_4.index t a * S1x128x64x128.size a ≤ (q a).val
          ∧ (q a).val < win0_4.index t a * S1x128x64x128.size a + S1x128x64x128.size a := by
  show q ∈ ((View.whole main_v0).slice (win0_4.rect t)).set ↔ _
  rw [View.set_slice_whole, Rect.mem_set_unit]
  exact Iff.rfl

/-- The blocks tile the array: (b, c, r, s) is in the block of the grid step with block index (b, 0, r / 64, s / 128). -/
theorem cover (q : S8x128x256x256.Idx) :
    ∃ t : Fin cfg0.N, (cfg0.win 4).flush t = true ∧ q ∈ ((cfg0.win 4).blk t).view.set := by
  have hq0 : (q 0).val < 8 := (q 0).isLt
  have hq1 : (q 1).val < 128 := (q 1).isLt
  have hq2 : (q 2).val < 256 := (q 2).isLt
  have hq3 : (q 3).val < 256 := (q 3).isLt
  obtain ⟨t, ht⟩ := idx_onto ⟨(q 0).val, hq0⟩ ⟨(q 2).val / 64, by omega⟩ ⟨(q 3).val / 128, by omega⟩
  have e0 : win0_4.index t (0 : Fin 4) = (q 0).val := congrFun ht 0
  have e1 : win0_4.index t (1 : Fin 4) = 0 := congrFun ht 1
  have e2 : win0_4.index t (2 : Fin 4) = (q 2).val / 64 := congrFun ht 2
  have e3 : win0_4.index t (3 : Fin 4) = (q 3).val / 128 := congrFun ht 3
  refine ⟨t, flush0_4 t, ?_⟩
  rw [mem_blk]
  intro a
  match a with
  | ⟨0, _⟩ => show win0_4.index t (0 : Fin 4) * 1 ≤ (q 0).val ∧ (q 0).val < win0_4.index t (0 : Fin 4) * 1 + 1; omega
  | ⟨1, _⟩ => show win0_4.index t (1 : Fin 4) * 128 ≤ (q 1).val ∧ (q 1).val < win0_4.index t (1 : Fin 4) * 128 + 128; omega
  | ⟨2, _⟩ => show win0_4.index t (2 : Fin 4) * 64 ≤ (q 2).val ∧ (q 2).val < win0_4.index t (2 : Fin 4) * 64 + 64; omega
  | ⟨3, _⟩ => show win0_4.index t (3 : Fin 4) * 128 ≤ (q 3).val ∧ (q 3).val < win0_4.index t (3 : Fin 4) * 128 + 128; omega

/-- The result array after the run is `G` of the argument arrays as the region finds them. -/
theorem final (c : Dev nD) :
    (dats m 0 c).arrAt 4 cfg0.N = G (V m c main_arg0) (V m c main_arg1) (V m c main_arg2) (V m c main_arg3) :=
  (dats m 0 c).arrAt_eq_of_cover 4 (G (V m c main_arg0) (V m c main_arg1) (V m c main_arg2) (V m c main_arg3))
    (fun t _ => flushed_eq m c t) cover

/-- The idealized kernel runs to the result `G` of its arguments, which it leaves unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelSide

end
-- ==== Proof.RefTerm.lean ====
/-
  The reference program's result as one pure term of its argument arrays, cut into named stages:
  the arrays re-laid into patches (batch, patch row, patch column, channel, row, column), the channels split
  into groups, a group's sum, mean and variance (kept as unit axes), the normalised value scaled and shifted
  per channel, the SiLU gate, and the patches laid back into images. Each stage is the reference's own
  operations in its own order; nothing is simplified here.
-/
import proofs.«132345_j75144747811287_1_alg».proof.Proof.Gen.ReferenceIdeal

noncomputable section

namespace Cert.RefSide

open Cert.ReferenceIdeal Idealize.ShloMosaic
open Cert.ReferenceIdeal.Facts₀

variable {F : FTy → Type} [FloatOps F]

/-- An image array cut into its 4 x 4 patches: entry (b, i, j, c, h, w) is the image's (b, c, 64 i + h, 64 j + w). -/
def toPatches (x : FVec F S8x128x256x256 .f32) : FVec F S8x4x4x128x64x64 .f32 :=
  transpose S8x4x4x128x64x64 [0, 2, 4, 1, 3, 5]
    (shapeCast S8x128x4x64x4x64 x shapeCasts_S8x128x256x256_S8x128x4x64x4x64)
    transposes_S8x128x4x64x4x64_S8x4x4x128x64x64_0_2_4_1_3_5

/-- The patches laid back into an image array. -/
def fromPatches (v : FVec F S8x4x4x128x64x64 .f32) : FVec F S8x128x256x256 .f32 :=
  shapeCast S8x128x256x256
    (transpose S8x128x4x64x4x64 [0, 3, 1, 4, 2, 5] v transposes_S8x4x4x128x64x64_S8x128x4x64x4x64_0_3_1_4_2_5)
    shapeCasts_S8x128x4x64x4x64_S8x128x256x256

/-- The channel axis split into 32 groups of 4. -/
def grouped (v : FVec F S8x4x4x128x64x64 .f32) : FVec F S8x4x4x32x4x64x64 .f32 :=
  shapeCast S8x4x4x32x4x64x64 v shapeCasts_S8x4x4x128x64x64_S8x4x4x32x4x64x64

/-- A scalar laid over the statistics' shape. -/
def splatStat (s : FVec F S_ .f32) : FVec F S8x4x4x32x1x1x1 .f32 :=
  broadcastInDim S8x4x4x32x1x1x1 ![] bcast_S_S8x4x4x32x1x1x1 s

/-- A statistic laid over its group's channels and pixels. -/
def overGroup (s : FVec F S8x4x4x32x1x1x1 .f32) : FVec F S8x4x4x32x4x64x64 .f32 :=
  broadcastInDim S8x4x4x32x4x64x64 ![0, 1, 2, 3, 4, 5, 6] bcast_S8x4x4x32x1x1x1_S8x4x4x32x4x64x64_0_1_2_3_4_5_6 s

/-- The sum over a group's channels and a patch's pixels, from zero, kept as three unit axes. -/
def groupSum (v : FVec F S8x4x4x32x4x64x64 .f32) : FVec F S8x4x4x32x1x1x1 .f32 :=
  broadcastInDim S8x4x4x32x1x1x1 ![0, 1, 2, 3] bcast_S8x4x4x32_S8x4x4x32x1x1x1_0_1_2_3
    (Host.reduceAdd v (constant S_ .f32 0x00000000#32) reducesTo_S8x4x4x32x4x64x64_S8x4x4x32_d4_5_6 h_S_)

/-- The group mean: the sum divided by 16384. -/
def groupMean (v : FVec F S8x4x4x32x4x64x64 .f32) : FVec F S8x4x4x32x1x1x1 .f32 :=
  Host.divf (groupSum v) (splatStat (constant S_ .f32 0x46800000#32))

/-- The variance's divisor: 16384 minus the (integer zero) degrees-of-freedom correction, as a float. -/
def normalizer : FVec F S_ .f32 :=
  subf (constant S_ .f32 0x46800000#32) (sitofp .f32 (constantI S_ 32 0#32))

/-- The group variance: the mean of the squared deviations, kept where the divisor is positive (a NaN elsewhere). -/
def groupVar (v : FVec F S8x4x4x32x4x64x64 .f32) : FVec F S8x4x4x32x1x1x1 .f32 :=
  select (broadcastInDim S8x4x4x32x1x1x1 ![] bcast_S_S8x4x4x32x1x1x1 (cmpf .ogt (normalizer (F := F)) (constant S_ .f32 0x00000000#32)))
    (Host.divf
      (groupSum (mulf (subf v (overGroup (groupMean v))) (subf v (overGroup (groupMean v)))))
      (splatStat normalizer))
    (splatStat (id (constant S_ .f32 0x7FC00000#32)))

/-- The normalised value: the deviation from the group mean times the reciprocal root of the guarded variance. -/
def normalized (v : FVec F S8x4x4x32x4x64x64 .f32) : FVec F S8x4x4x32x4x64x64 .f32 :=
  mulf (subf v (overGroup (groupMean v)))
    (overGroup (Host.rsqrt (addf (groupVar v) (splatStat (constant S_ .f32 0x3727C5AC#32)))))

/-- A per-channel vector laid over the patches' shape. -/
def overChannels (w : FVec F S128 .f32) : FVec F S8x4x4x128x64x64 .f32 :=
  broadcastInDim S8x4x4x128x64x64 ![0, 1, 2, 3, 4, 5] bcast_S1x1x1x128x1x1_S8x4x4x128x64x64_0_1_2_3_4_5
    (broadcastInDim S1x1x1x128x1x1 ![3, 4, 5] bcast_S128x1x1_S1x1x1x128x1x1_3_4_5
      (broadcastInDim S128x1x1 ![0] bcast_S128_S128x1x1_0 w))

/-- A scalar laid over the patches' shape. -/
def splatPatches (s : FVec F S_ .f32) : FVec F S8x4x4x128x64x64 .f32 :=
  broadcastInDim S8x4x4x128x64x64 ![] bcast_S_S8x4x4x128x64x64 s

/-- SiLU as the reference spells it: `y * (1 / (1 + exp (-y)))`. -/
def silu (y : FVec F S8x4x4x128x64x64 .f32) : FVec F S8x4x4x128x64x64 .f32 :=
  mulf y (Host.divf (splatPatches (constant S_ .f32 0x3F800000#32))
    (addf (splatPatches (constant S_ .f32 0x3F800000#32)) (Host.exp (Host.negf y))))

/-- The reference's result in the patches' layout. -/
def gatedPatches (x y : FVec F S8x128x256x256 .f32) (w b : FVec F S128 .f32) : FVec F S8x4x4x128x64x64 .f32 :=
  mulf
    (addf (mulf (shapeCast S8x4x4x128x64x64 (normalized (grouped (toPatches x))) shapeCasts_S8x4x4x32x4x64x64_S8x4x4x128x64x64)
      (overChannels w)) (overChannels b))
    (addf (splatPatches (constant S_ .f32 0x3F800000#32)) (silu (toPatches y)))

/-- THE REFERENCE'S RESULT as a term of its four arguments. -/
def refOut (x y : FVec F S8x128x256x256 .f32) (w b : FVec F S128 .f32) : FVec F S8x128x256x256 .f32 :=
  fromPatches (gatedPatches x y w b)

end Cert.RefSide

end
-- ==== Proof.RefRun.lean ====
/-
  The reference program's run: its @main, with the three outlined functions (the variance, its guard, SiLU)
  written out at their calls, is a straight line of host operations; every execution ends with the result
  buffer at the composed term `refOut` of the four arguments, and the arguments unchanged.
-/
import proofs.«132345_j75144747811287_1_alg».proof.Proof.RefTerm
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations in order, the calls written out: twelve of its own (the two arrays cut into patches, the
    channels grouped, the group mean), the variance's twenty over its call's buffers with its guard's three
    (the NaN converted to its own type, laid over the statistics' shape, the select), seventeen of its own (the
    normalised value, scaled and shifted per channel), SiLU's nine over its call's buffers, and the last six
    (one plus the gate, the product, the patches laid back). -/
abbrev ops : List (HloOp τ sig (Elt F)) :=
  [ reshape main_arg0 main_v0 rfl shapeCasts_S8x128x256x256_S8x128x4x64x4x64,
    unary main_v0 main_v1 ((transpose S8x4x4x128x64x64 [0, 2, 4, 1, 3, 5] · transposes_S8x128x4x64x4x64_S8x4x4x128x64x64_0_2_4_1_3_5) : (⟨S8x128x4x64x4x64, .f32⟩ : BufTy).Contents (Elt F) → (⟨S8x4x4x128x64x64, .f32⟩ : BufTy).Contents (Elt F)),
    reshape main_arg1 main_v2 rfl shapeCasts_S8x128x256x256_S8x128x4x64x4x64,
    unary main_v2 main_v3 ((transpose S8x4x4x128x64x64 [0, 2, 4, 1, 3, 5] · transposes_S8x128x4x64x4x64_S8x4x4x128x64x64_0_2_4_1_3_5) : (⟨S8x128x4x64x4x64, .f32⟩ : BufTy).Contents (Elt F) → (⟨S8x4x4x128x64x64, .f32⟩ : BufTy).Contents (Elt F)),
    reshape main_v1 main_v4 rfl shapeCasts_S8x4x4x128x64x64_S8x4x4x32x4x64x64,
    nullary main_cst (constant S_ .f32 0x00000000#32),
    binary main_v4 main_cst main_v5 ((fun x v => Host.reduceAdd x v reducesTo_S8x4x4x32x4x64x64_S8x4x4x32_d4_5_6 h_S_) : (⟨S8x4x4x32x4x64x64, .f32⟩ : BufTy).Contents (Elt F) → (⟨S_, .f32⟩ : BufTy).Contents (Elt F) → (⟨S8x4x4x32, .f32⟩ : BufTy).Contents (Elt F)),
    unary main_v5 main_v6 (broadcastInDim S8x4x4x32x1x1x1 ![0, 1, 2, 3] bcast_S8x4x4x32_S8x4x4x32x1x1x1_0_1_2_3 : (⟨S8x4x4x32, .f32⟩ : BufTy).Contents (Elt F) → (⟨S8x4x4x32x1x1x1, .f32⟩ : BufTy).Contents (Elt F)),
    nullary main_cst_0 (constant S_ .f32 0x46800000#32),
    unary main_cst_0 main_v7 (broadcastInDim S8x4x4x32x1x1x1 ![] bcast_S_S8x4x4x32x1x1x1 : (⟨S_, .f32⟩ : BufTy).Contents (Elt F) → (⟨S8x4x4x32x1x1x1, .f32⟩ : BufTy).Contents (Elt F)),
    binary main_v6 main_v7 main_v8 (Host.divf : (⟨S8x4x4x32x1x1x1, .f32⟩ : BufTy).Contents (Elt F) → (⟨S8x4x4x32x1x1x1, .f32⟩ : BufTy).Contents (Elt F) → (⟨S8x4x4x32x1x1x1, .f32⟩ : BufTy).Contents (Elt F)),
    nullary main_c (constantI S_ 32 0#32),
    TRef.nullary main_call0.cst (constant S_ .f32 0x00000000#32),
    TRef.binary (.of main_v4) main_call0.cst main_call0.v0 (fun x v => Host.reduceAdd x v reducesTo_S8x4x4x32x4x64x64_S8x4x4x32_d4_5_6 h_S_),
    TRef.unary main_call0.v0 main_call0.v1 (broadcastInDim S8x4x4x32x1x1x1 ![0, 1, 2, 3] bcast_S8x4x4x32_S8x4x4x32x1x1x1_0_1_2_3),
    TRef.nullary main_call0.cst_0 (constant S_ .f32 0x46800000#32),
    TRef.unary main_call0.cst_0 main_call0.v2 (broadcastInDim S8x4x4x32x1x1x1 ![] bcast_S_S8x4x4x32x1x1x1),
    TRef.binary main_call0.v1 main_call0.v2 main_call0.v3 Host.divf,
    TRef.unary main_call0.v3 main_call0.v4 (broadcastInDim S8x4x4x32x4x64x64 ![0, 1, 2, 3, 4, 5, 6] bcast_S8x4x4x32x1x1x1_S8x4x4x32x4x64x64_0_1_2_3_4_5_6),
    TRef.binary (.of main_v4) main_call0.v4 main_call0.v5 subf,
    TRef.binary main_call0.v5 main_call0.v5 main_call0.v6 mulf,
    TRef.unary (.of main_c) main_call0.v7 (sitofp .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x4x4x32x4x64x64_S8x4x4x32_d4_5_6 h_S_),
    TRef.unary main_call0.v9 main_call0.v10 (broadcastInDim S8x4x4x32x1x1x1 ![0, 1, 2, 3] bcast_S8x4x4x32_S8x4x4x32x1x1x1_0_1_2_3),
    TRef.unary main_call0.v8 main_call0.v11 (broadcastInDim S8x4x4x32x1x1x1 ![] bcast_S_S8x4x4x32x1x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8x4x4x32x1x1x1 ![] bcast_S_S8x4x4x32x1x1x1),
    TRef.ternary main_call0.v13 main_call0.v12 main_call0.call0.v1 main_call0.call0.v2 (fun p a b => select (broadcastInDim S8x4x4x32x1x1x1 ![] bcast_S_S8x4x4x32x1x1x1 p) a b),
    unary main_v8 main_v10 (broadcastInDim S8x4x4x32x4x64x64 ![0, 1, 2, 3, 4, 5, 6] bcast_S8x4x4x32x1x1x1_S8x4x4x32x4x64x64_0_1_2_3_4_5_6 : (⟨S8x4x4x32x1x1x1, .f32⟩ : BufTy).Contents (Elt F) → (⟨S8x4x4x32x4x64x64, .f32⟩ : BufTy).Contents (Elt F)),
    binary main_v4 main_v10 main_v11 (subf : (⟨S8x4x4x32x4x64x64, .f32⟩ : BufTy).Contents (Elt F) → (⟨S8x4x4x32x4x64x64, .f32⟩ : BufTy).Contents (Elt F) → (⟨S8x4x4x32x4x64x64, .f32⟩ : BufTy).Contents (Elt F)),
    nullary main_cst_1 (constant S_ .f32 0x3727C5AC#32),
    unary main_cst_1 main_v12 (broadcastInDim S8x4x4x32x1x1x1 ![] bcast_S_S8x4x4x32x1x1x1 : (⟨S_, .f32⟩ : BufTy).Contents (Elt F) → (⟨S8x4x4x32x1x1x1, .f32⟩ : BufTy).Contents (Elt F)),
    binary main_v9 main_v12 main_v13 (addf : (⟨S8x4x4x32x1x1x1, .f32⟩ : BufTy).Contents (Elt F) → (⟨S8x4x4x32x1x1x1, .f32⟩ : BufTy).Contents (Elt F) → (⟨S8x4x4x32x1x1x1, .f32⟩ : BufTy).Contents (Elt F)),
    unary main_v13 main_v14 (Host.rsqrt : (⟨S8x4x4x32x1x1x1, .f32⟩ : BufTy).Contents (Elt F) → (⟨S8x4x4x32x1x1x1, .f32⟩ : BufTy).Contents (Elt F)),
    unary main_v14 main_v15 (broadcastInDim S8x4x4x32x4x64x64 ![0, 1, 2, 3, 4, 5, 6] bcast_S8x4x4x32x1x1x1_S8x4x4x32x4x64x64_0_1_2_3_4_5_6 : (⟨S8x4x4x32x1x1x1, .f32⟩ : BufTy).Contents (Elt F) → (⟨S8x4x4x32x4x64x64, .f32⟩ : BufTy).Contents (Elt F)),
    binary main_v11 main_v15 main_v16 (mulf : (⟨S8x4x4x32x4x64x64, .f32⟩ : BufTy).Contents (Elt F) → (⟨S8x4x4x32x4x64x64, .f32⟩ : BufTy).Contents (Elt F) → (⟨S8x4x4x32x4x64x64, .f32⟩ : BufTy).Contents (Elt F)),
    reshape main_v16 main_v17 rfl shapeCasts_S8x4x4x32x4x64x64_S8x4x4x128x64x64,
    unary main_arg2 main_v18 (broadcastInDim S128x1x1 ![0] bcast_S128_S128x1x1_0 : (⟨S128, .f32⟩ : BufTy).Contents (Elt F) → (⟨S128x1x1, .f32⟩ : BufTy).Contents (Elt F)),
    unary main_v18 main_v19 (broadcastInDim S1x1x1x128x1x1 ![3, 4, 5] bcast_S128x1x1_S1x1x1x128x1x1_3_4_5 : (⟨S128x1x1, .f32⟩ : BufTy).Contents (Elt F) → (⟨S1x1x1x128x1x1, .f32⟩ : BufTy).Contents (Elt F)),
    unary main_v19 main_v20 (broadcastInDim S8x4x4x128x64x64 ![0, 1, 2, 3, 4, 5] bcast_S1x1x1x128x1x1_S8x4x4x128x64x64_0_1_2_3_4_5 : (⟨S1x1x1x128x1x1, .f32⟩ : BufTy).Contents (Elt F) → (⟨S8x4x4x128x64x64, .f32⟩ : BufTy).Contents (Elt F)),
    binary main_v17 main_v20 main_v21 (mulf : (⟨S8x4x4x128x64x64, .f32⟩ : BufTy).Contents (Elt F) → (⟨S8x4x4x128x64x64, .f32⟩ : BufTy).Contents (Elt F) → (⟨S8x4x4x128x64x64, .f32⟩ : BufTy).Contents (Elt F)),
    unary main_arg3 main_v22 (broadcastInDim S128x1x1 ![0] bcast_S128_S128x1x1_0 : (⟨S128, .f32⟩ : BufTy).Contents (Elt F) → (⟨S128x1x1, .f32⟩ : BufTy).Contents (Elt F)),
    unary main_v22 main_v23 (broadcastInDim S1x1x1x128x1x1 ![3, 4, 5] bcast_S128x1x1_S1x1x1x128x1x1_3_4_5 : (⟨S128x1x1, .f32⟩ : BufTy).Contents (Elt F) → (⟨S1x1x1x128x1x1, .f32⟩ : BufTy).Contents (Elt F)),
    unary main_v23 main_v24 (broadcastInDim S8x4x4x128x64x64 ![0, 1, 2, 3, 4, 5] bcast_S1x1x1x128x1x1_S8x4x4x128x64x64_0_1_2_3_4_5 : (⟨S1x1x1x128x1x1, .f32⟩ : BufTy).Contents (Elt F) → (⟨S8x4x4x128x64x64, .f32⟩ : BufTy).Contents (Elt F)),
    binary main_v21 main_v24 main_v25 (addf : (⟨S8x4x4x128x64x64, .f32⟩ : BufTy).Contents (Elt F) → (⟨S8x4x4x128x64x64, .f32⟩ : BufTy).Contents (Elt F) → (⟨S8x4x4x128x64x64, .f32⟩ : BufTy).Contents (Elt F)),
    TRef.unary (.of main_v3) main_call1.v0 Host.negf,
    TRef.unary main_call1.v0 main_call1.v1 Host.exp,
    TRef.nullary main_call1.cst (constant S_ .f32 0x3F800000#32),
    TRef.unary main_call1.cst main_call1.v2 (broadcastInDim S8x4x4x128x64x64 ![] bcast_S_S8x4x4x128x64x64),
    TRef.binary main_call1.v2 main_call1.v1 main_call1.v3 addf,
    TRef.nullary main_call1.cst_0 (constant S_ .f32 0x3F800000#32),
    TRef.unary main_call1.cst_0 main_call1.v4 (broadcastInDim S8x4x4x128x64x64 ![] bcast_S_S8x4x4x128x64x64),
    TRef.binary main_call1.v4 main_call1.v3 main_call1.v5 Host.divf,
    TRef.binary (.of main_v3) main_call1.v5 main_call1.v6 mulf,
    nullary main_cst_2 (constant S_ .f32 0x3F800000#32),
    unary main_cst_2 main_v27 (broadcastInDim S8x4x4x128x64x64 ![] bcast_S_S8x4x4x128x64x64 : (⟨S_, .f32⟩ : BufTy).Contents (Elt F) → (⟨S8x4x4x128x64x64, .f32⟩ : BufTy).Contents (Elt F)),
    binary main_v27 main_v26 main_v28 (addf : (⟨S8x4x4x128x64x64, .f32⟩ : BufTy).Contents (Elt F) → (⟨S8x4x4x128x64x64, .f32⟩ : BufTy).Contents (Elt F) → (⟨S8x4x4x128x64x64, .f32⟩ : BufTy).Contents (Elt F)),
    binary main_v25 main_v28 main_v29 (mulf : (⟨S8x4x4x128x64x64, .f32⟩ : BufTy).Contents (Elt F) → (⟨S8x4x4x128x64x64, .f32⟩ : BufTy).Contents (Elt F) → (⟨S8x4x4x128x64x64, .f32⟩ : BufTy).Contents (Elt F)),
    unary main_v29 main_v30 ((transpose S8x128x4x64x4x64 [0, 3, 1, 4, 2, 5] · transposes_S8x4x4x128x64x64_S8x128x4x64x4x64_0_3_1_4_2_5) : (⟨S8x4x4x128x64x64, .f32⟩ : BufTy).Contents (Elt F) → (⟨S8x128x4x64x4x64, .f32⟩ : BufTy).Contents (Elt F)),
    reshape main_v30 main_v31 rfl shapeCasts_S8x128x4x64x4x64_S8x128x256x256 ]

set_option maxRecDepth 8192 in
set_option maxHeartbeats 4000000 in
/-- With each outlined function's body put in place of its call, @main is the list of operations above, run in order. -/
theorem main_eq (c : Dev nD) : main (F := F) c = seq ops := by
  simp only [main, fn_var.body, fn_where.body, fn_silu.body, seq, bind_assoc, pure_bind]

attribute [local irreducible] Host.reduceAdd in
set_option maxRecDepth 8192 in
set_option maxHeartbeats 1600000 in
/-- Running the operations in order from any contents leaves, in the result buffer, `refOut` of the four argument
    buffers: each operation writes one buffer from the buffers written before it, and composing them along the
    list is the term `refOut` stage by stage. The group sums are carried as they stand. -/
theorem out_eq (V : Valuation τ sig (Elt F)) :
    after ops V (main_v31 : DevRef τ sig)
      = refOut (V (main_arg0 : DevRef τ sig)) (V (main_arg1 : DevRef τ sig)) (V (main_arg2 : DevRef τ sig))
          (V (main_arg3 : DevRef τ sig)) := by
  simp only [after_cons, after_nil]
  rfl

attribute [local irreducible] Host.reduceAdd in
set_option maxRecDepth 8192 in
set_option maxHeartbeats 1600000 in
/-- No operation writes an argument. -/
theorem arg0_eq (V : Valuation τ sig (Elt F)) :
    after ops V (main_arg0 : DevRef τ sig) = V (main_arg0 : DevRef τ sig) := by
  simp only [after_cons, after_nil]
  rfl

attribute [local irreducible] Host.reduceAdd in
set_option maxRecDepth 8192 in
set_option maxHeartbeats 1600000 in
theorem arg1_eq (V : Valuation τ sig (Elt F)) :
    after ops V (main_arg1 : DevRef τ sig) = V (main_arg1 : DevRef τ sig) := by
  simp only [after_cons, after_nil]
  rfl

attribute [local irreducible] Host.reduceAdd in
set_option maxRecDepth 8192 in
set_option maxHeartbeats 1600000 in
theorem arg2_eq (V : Valuation τ sig (Elt F)) :
    after ops V (main_arg2 : DevRef τ sig) = V (main_arg2 : DevRef τ sig) := by
  simp only [after_cons, after_nil]
  rfl

attribute [local irreducible] Host.reduceAdd in
set_option maxRecDepth 8192 in
set_option maxHeartbeats 1600000 in
theorem arg3_eq (V : Valuation τ sig (Elt F)) :
    after ops V (main_arg3 : DevRef τ sig) = V (main_arg3 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., unary_bufs_sub .., reshape_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., reshape_bufs_sub .., unary_bufs_sub .., unary_bufs_sub .., unary_bufs_sub .., binary_bufs_sub ..,
    unary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., binary_bufs_sub .., unary_bufs_sub ..,
    reshape_bufs_sub ..⟩

/-- Every weakly fair execution of @main on the TensorCores terminates, and every final state has each
    TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Every weakly fair execution of the reference ends with its result at `refOut` of the arguments, which are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
        = refOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c main_v31).trans (out_eq _), (h c main_arg0).trans (arg0_eq _), (h c main_arg1).trans (arg1_eq _),
      (h c main_arg2).trans (arg2_eq _), (h c main_arg3).trans (arg3_eq _)⟩)
    (run_main m ρ)

end Cert.RefSide

end
-- ==== Proof.LibIdxSeven.lean ====
/-
  Indices of rank 7 from their coordinates, and a rank-7 row-major position as one sum of products (the rank-7
  companion of the library's `Shape.rowMajor_val_one` … `rowMajor_val_six`): what a reshape between a rank-7 array
  and another shape is read through at an index.
-/
import Idealize.ShloMosaic.Shape

namespace Idealize.ShloMosaic.Shape

/-- Rank 7: the position of index `i` in a shape of extents `d`, row-major. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (rowMajorPi d i).val = _
  rw [rowMajorPi_succ_val, rowMajorPi_succ_val, rowMajorPi_succ_val, rowMajorPi_succ_val, rowMajorPi_succ_val,
    rowMajorPi_succ_val, rowMajorPi_succ_val]
  simp [rowMajorPi_zero, Fin.prod_univ_succ, Nat.add_mul, Nat.mul_assoc, Nat.add_assoc]

end Idealize.ShloMosaic.Shape

namespace Idealize.ShloMosaic.ValueIdx

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun k => match k with
    | ⟨0, _⟩ => a | ⟨1, _⟩ => b | ⟨2, _⟩ => c | ⟨3, _⟩ => d | ⟨4, _⟩ => e | ⟨5, _⟩ => f | ⟨6, _⟩ => g

/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

end Idealize.ShloMosaic.ValueIdx
-- ==== Proof.RefLayout.lean ====
/-
  The reference's layout stages read at an index given by coordinates.

  An image index (b, c, r, s) and a patch index (b, i, j, c, h, w) name the same entry when r = 64 i + h and
  s = 64 j + w: cutting into patches is a reshape (both row-major positions are
  ((b * 128 + c) * 256 + r) * 256 + s) followed by a permutation of the six axes, and laying back is the inverse.
  Splitting the channel axis into groups is a reshape with c = 4 g + cc. A statistic, a scalar and a per-channel
  vector laid over a larger shape read back the entry they were laid from. The sum over a group's channels and a
  patch's pixels is, from its zero, the triple sum over channel, row and column.
-/
import proofs.«132345_j75144747811287_1_alg».proof.Proof.RefTerm
import proofs.«132345_j75144747811287_1_alg».proof.Proof.Spec
import proofs.«132345_j75144747811287_1_alg».proof.Proof.LibIdxSeven
import Idealize.ShloMosaic.Lib.ValueIdxRank6
import Idealize.ShloMosaic.Lib.Pipeline.Value
import Idealize.ShloMosaic.Lib.IdealHost
import Idealize.ShloMosaic.PureOps.Reduce

noncomputable section

namespace Cert.RefSide

open Cert.ReferenceIdeal Idealize.ShloMosaic Idealize.ShloMosaic.ValueIdx Cert.GroupNorm
open Cert.ReferenceIdeal.Facts₀

variable {F : FTy → Type} [FloatOps F]

/-- Cutting into patches: entry (b, i, j, c, h, w) is the image's (b, c, 64 i + h, 64 j + w). -/
theorem toPatches_apply (x : FVec F S8x128x256x256 .f32) (b : Fin 8) (i j : Fin 4) (c : Fin 128) (h w : Fin 64) :
    toPatches x (ix6 b i j c h w) = x (ix4 b c (row i h) (row j w)) := by
  unfold toPatches
  refine (transpose_apply _ _ _ (ix6 b i j c h w) (ix6 b c i h j w) fun a => ?_).trans ?_
  · match a with | ⟨0, _⟩ => rfl | ⟨1, _⟩ => rfl | ⟨2, _⟩ => rfl | ⟨3, _⟩ => rfl | ⟨4, _⟩ => rfl | ⟨5, _⟩ => rfl
  · refine shapeCast_apply _ _ _ _ ?_
    rw [Shape.rowMajor_val_four, Shape.rowMajor_val_six]
    show ((b.val * 128 + c.val) * 256 + (row i h).val) * 256 + (row j w).val
      = ((((b.val * 128 + c.val) * 4 + i.val) * 64 + h.val) * 4 + j.val) * 64 + w.val
    simp only [row]; omega

/-- Laying the patches back: the image's (b, c, r, s) is patch (r / 64, s / 64), pixel (r mod 64, s mod 64). -/
theorem fromPatches_apply (v : FVec F S8x4x4x128x64x64 .f32) (b : Fin 8) (c : Fin 128) (r s : Fin 256) :
    fromPatches v (ix4 b c r s) = v (ix6 b (blk r) (blk s) c (off r) (off s)) := by
  unfold fromPatches
  refine (shapeCast_apply _ _ (ix4 b c r s) (ix6 b c (blk r) (off r) (blk s) (off s)) ?_).trans ?_
  · rw [Shape.rowMajor_val_four, Shape.rowMajor_val_six]
    show ((((b.val * 128 + c.val) * 4 + (blk r).val) * 64 + (off r).val) * 4 + (blk s).val) * 64 + (off s).val
      = ((b.val * 128 + c.val) * 256 + r.val) * 256 + s.val
    simp only [blk, off]; omega
  · refine transpose_apply _ _ _ _ _ fun a => ?_
    match a with | ⟨0, _⟩ => rfl | ⟨1, _⟩ => rfl | ⟨2, _⟩ => rfl | ⟨3, _⟩ => rfl | ⟨4, _⟩ => rfl | ⟨5, _⟩ => rfl

/-- Splitting the channels into groups: entry (b, i, j, g, cc, h, w) is channel 4 g + cc. -/
theorem grouped_apply (v : FVec F S8x4x4x128x64x64 .f32) (b : Fin 8) (i j : Fin 4) (g : Fin 32) (cc : Fin 4) (h w : Fin 64) :
    grouped v (ix7 b i j g cc h w) = v (ix6 b i j (chan g cc) h w) := by
  unfold grouped
  refine shapeCast_apply _ _ _ _ ?_
  rw [Shape.rowMajor_val_six, Shape.rowMajor_val_seven]
  show ((((b.val * 4 + i.val) * 4 + j.val) * 128 + (chan g cc).val) * 64 + h.val) * 64 + w.val
    = (((((b.val * 4 + i.val) * 4 + j.val) * 32 + g.val) * 4 + cc.val) * 64 + h.val) * 64 + w.val
  simp only [chan]; omega

/-- Joining the groups back into channels: channel c is entry (c / 4, c mod 4). -/
theorem ungrouped_apply (u : FVec F S8x4x4x32x4x64x64 .f32) (b : Fin 8) (i j : Fin 4) (c : Fin 128) (h w : Fin 64) :
    shapeCast S8x4x4x128x64x64 u shapeCasts_S8x4x4x32x4x64x64_S8x4x4x128x64x64 (ix6 b i j c h w)
      = u (ix7 b i j (grp c) (sub c) h w) := by
  refine shapeCast_apply _ _ _ _ ?_
  rw [Shape.rowMajor_val_six, Shape.rowMajor_val_seven]
  show (((((b.val * 4 + i.val) * 4 + j.val) * 32 + (grp c).val) * 4 + (sub c).val) * 64 + h.val) * 64 + w.val
    = ((((b.val * 4 + i.val) * 4 + j.val) * 128 + c.val) * 64 + h.val) * 64 + w.val
  simp only [grp, sub]; omega

/-- A statistic laid over its group reads the statistic. -/
theorem overGroup_apply (s : FVec F S8x4x4x32x1x1x1 .f32) (b : Fin 8) (i j : Fin 4) (g : Fin 32) (cc : Fin 4) (h w : Fin 64) :
    overGroup s (ix7 b i j g cc h w) = s (ix7 b i j g (0 : Fin 1) (0 : Fin 1) (0 : Fin 1)) := by
  unfold overGroup
  refine broadcastInDim_apply _ _ _ _ _ fun a => ?_
  match a with
  | ⟨0, _⟩ => rfl | ⟨1, _⟩ => rfl | ⟨2, _⟩ => rfl | ⟨3, _⟩ => rfl | ⟨4, _⟩ => rfl | ⟨5, _⟩ => rfl | ⟨6, _⟩ => rfl

/-- A scalar laid over the statistics' shape reads the scalar. -/
theorem splatStat_apply (s : FVec F S_ .f32) (q : S8x4x4x32x1x1x1.Idx) : splatStat s q = s ix0 :=
  broadcastInDim_scalar_apply _ _ _

/-- A scalar laid over the patches' shape reads the scalar. -/
theorem splatPatches_apply (s : FVec F S_ .f32) (q : S8x4x4x128x64x64.Idx) : splatPatches s q = s ix0 :=
  broadcastInDim_scalar_apply _ _ _

/-- A per-channel vector laid over the patches reads the channel's entry. -/
theorem overChannels_apply (v : FVec F S128 .f32) (b : Fin 8) (i j : Fin 4) (c : Fin 128) (h w : Fin 64) :
    overChannels v (ix6 b i j c h w) = v (ix1 c) := by
  unfold overChannels
  refine (broadcastInDim_apply _ _ _ (ix6 b i j c h w) (ix6 (0 : Fin 1) (0 : Fin 1) (0 : Fin 1) c (0 : Fin 1) (0 : Fin 1)) fun a => ?_).trans ?_
  · match a with | ⟨0, _⟩ => rfl | ⟨1, _⟩ => rfl | ⟨2, _⟩ => rfl | ⟨3, _⟩ => rfl | ⟨4, _⟩ => rfl | ⟨5, _⟩ => rfl
  refine (broadcastInDim_apply _ _ _ _ (ix3 c (0 : Fin 1) (0 : Fin 1)) fun a => ?_).trans ?_
  · match a with | ⟨0, _⟩ => rfl | ⟨1, _⟩ => rfl | ⟨2, _⟩ => rfl
  refine broadcastInDim_apply _ _ _ _ (ix1 c) fun a => ?_
  match a with | ⟨0, _⟩ => rfl

/-- Dropping the group's three axes from (b', i', j', g', cc, h, w) leaves (b', i', j', g'). -/
theorem drop_val (q : S8x4x4x32x4x64x64.Idx) (a : Fin 4) :
    ((reducesTo_S8x4x4x32x4x64x64_S8x4x4x32_d4_5_6.drop q a : Fin _) : Nat) = (q ⟨a.val, Nat.lt_of_lt_of_le a.isLt (by decide : 4 ≤ 7)⟩ : Fin _).val := by
  match a with
  | ⟨0, _⟩ => exact Shape.ReducesTo.drop_apply_val_of_eq _ q 0 0
  | ⟨1, _⟩ => exact Shape.ReducesTo.drop_apply_val_of_eq _ q 1 1
  | ⟨2, _⟩ => exact Shape.ReducesTo.drop_apply_val_of_eq _ q 2 2
  | ⟨3, _⟩ => exact Shape.ReducesTo.drop_apply_val_of_eq _ q 3 3

/-- The indices that drop to (b, i, j, g) are exactly the (b, i, j, g, cc, h, w): their sum is the triple sum. -/
theorem sum_group {M : Type} [AddCommMonoid M] (v : S8x4x4x32x4x64x64.Idx → M) (b : Fin 8) (i j : Fin 4) (g : Fin 32) :
    ∑ q ∈ Finset.univ.filter (fun q => reducesTo_S8x4x4x32x4x64x64_S8x4x4x32_d4_5_6.drop q = ix4 b i j g), v q
      = ∑ cc : Fin 4, ∑ h : Fin 64, ∑ w : Fin 64, v (ix7 b i j g cc h w) := by
  rw [← Fintype.sum_prod_type', ← Fintype.sum_prod_type' (f := fun (p : Fin 4 × Fin 64) (w : Fin 64) => v (ix7 b i j g p.1 p.2 w))]
  refine Finset.sum_nbij' (fun q => ((q 4, q 5), q 6)) (fun p => ix7 b i j g p.1.1 p.1.2 p.2) ?_ ?_ ?_ ?_ ?_
  · intro q _; exact Finset.mem_univ _
  · intro p _
    refine Finset.mem_filter.2 ⟨Finset.mem_univ _, funext fun a => Fin.ext ?_⟩
    rw [drop_val]
    match a with | ⟨0, _⟩ => rfl | ⟨1, _⟩ => rfl | ⟨2, _⟩ => rfl | ⟨3, _⟩ => rfl
  · intro q hq
    have hj := (Finset.mem_filter.1 hq).2
    have e := fun a : Fin 4 => (drop_val q a).symm.trans (congrArg (fun t : S8x4x4x32.Idx => (t a).val) hj)
    funext a
    match a with
    | ⟨0, _⟩ => exact Fin.ext (e 0).symm
    | ⟨1, _⟩ => exact Fin.ext (e 1).symm
    | ⟨2, _⟩ => exact Fin.ext (e 2).symm
    | ⟨3, _⟩ => exact Fin.ext (e 3).symm
    | ⟨4, _⟩ => rfl | ⟨5, _⟩ => rfl | ⟨6, _⟩ => rfl
  · intro p _; rfl
  · intro q hq
    have hj := (Finset.mem_filter.1 hq).2
    have e := fun a : Fin 4 => (drop_val q a).symm.trans (congrArg (fun t : S8x4x4x32.Idx => (t a).val) hj)
    refine congrArg v (funext fun a => ?_)
    match a with
    | ⟨0, _⟩ => exact Fin.ext (e 0)
    | ⟨1, _⟩ => exact Fin.ext (e 1)
    | ⟨2, _⟩ => exact Fin.ext (e 2)
    | ⟨3, _⟩ => exact Fin.ext (e 3)
    | ⟨4, _⟩ => rfl | ⟨5, _⟩ => rfl | ⟨6, _⟩ => rfl

/-- The sum over a group's channels and a patch's pixels: zero plus the triple sum, channel, then row, then column. -/
theorem groupSum_apply (v : FVec Ideal S8x4x4x32x4x64x64 .f32) (b : Fin 8) (i j : Fin 4) (g : Fin 32) (u0 u1 u2 : Fin 1) :
    groupSum v (ix7 b i j g u0 u1 u2)
      = Ideal.ofBits .f32 0x00000000#32 + ∑ cc : Fin 4, ∑ h : Fin 64, ∑ w : Fin 64, v (ix7 b i j g cc h w) := by
  unfold groupSum
  refine (broadcastInDim_apply _ _ _ (ix7 b i j g u0 u1 u2) (ix4 b i j g) fun a => ?_).trans ?_
  · match a with | ⟨0, _⟩ => rfl | ⟨1, _⟩ => rfl | ⟨2, _⟩ => rfl | ⟨3, _⟩ => rfl
  rw [hostReduceAdd_apply]
  unfold Ideal.hostReduceAdd
  refine congrArg (fun t => _ + t) ?_
  exact sum_group v b i j g

end Cert.RefSide

end
-- ==== Proof.RefValue.lean ====
/-
  The reference's term is `G`: read at an index (b, c, r, s), the patches laid back send it to patch
  (r / 64, s / 64), pixel (r mod 64, s mod 64); there the value is the patch function of that patch of x and y.

  The group mean is (0 + the triple sum) / 16384, which is the sum times 2^-14 on every extended real. The
  variance's divisor is 16384 - 0 = 16384 > 0, so the guarded quotient is the quotient, again the sum times 2^-14.
  The reference's 1 / (1 + e^(-y)) is the logistic function, and its `1.0` is 1.
-/
import proofs.«132345_j75144747811287_1_alg».proof.Proof.RefLayout

noncomputable section

namespace Cert.RefSide

open Cert.ReferenceIdeal Idealize.ShloMosaic Idealize.ShloMosaic.ValueIdx Cert.GroupNorm
open Cert.ReferenceIdeal.Facts₀

/-- The variance's divisor is the real 16384. -/
theorem normalizer_val : normalizer (F := Ideal) ix0 = ((16384 : ℝ) : EReal) := by
  show Ideal.ofBits .f32 0x46800000#32 - (((0#32 : BitVec 32).toInt : ℝ) : EReal) = _
  rw [ofBits_count]
  simp

/-- It is positive: the guard keeps the quotient. -/
theorem guard_val : cmpf .ogt (normalizer (F := Ideal)) (constant S_ .f32 0x00000000#32) ix0 = 1#1 := by
  show Ideal.cmp .ogt (normalizer (F := Ideal) ix0) (Ideal.ofBits .f32 0x00000000#32) = 1#1
  rw [normalizer_val, ofBits_zero]
  simp [Ideal.cmp]

/-- The patch's entries in the grouped layout. -/
theorem grouped_toPatches_apply (x : FVec Ideal S8x128x256x256 .f32) (b : Fin 8) (i j : Fin 4) (g : Fin 32) (cc : Fin 4)
    (h w : Fin 64) : grouped (toPatches x) (ix7 b i j g cc h w) = patch x b i j (chan g cc) h w := by
  rw [grouped_apply, toPatches_apply]; rfl

/-- The group mean of the reference is the specification's mean of the patch. -/
theorem groupMean_apply (x : FVec Ideal S8x128x256x256 .f32) (b : Fin 8) (i j : Fin 4) (g : Fin 32) (u0 u1 u2 : Fin 1) :
    groupMean (grouped (toPatches x)) (ix7 b i j g u0 u1 u2) = mean (patch x b i j) g := by
  unfold groupMean
  rw [hostDivf_apply, groupSum_apply, splatStat_apply]
  show Ideal.div _ (Ideal.ofBits .f32 0x46800000#32) = _
  rw [div_count, ofBits_zero, zero_add]
  simp only [grouped_toPatches_apply]
  rfl

/-- The deviation from the group mean, in the grouped layout. -/
theorem deviation_apply (x : FVec Ideal S8x128x256x256 .f32) (b : Fin 8) (i j : Fin 4) (g : Fin 32) (cc : Fin 4) (h w : Fin 64) :
    subf (grouped (toPatches x)) (overGroup (groupMean (grouped (toPatches x)))) (ix7 b i j g cc h w)
      = patch x b i j (chan g cc) h w - mean (patch x b i j) g := by
  rw [subf_apply, overGroup_apply, groupMean_apply, grouped_toPatches_apply]

/-- The group variance of the reference is the specification's variance of the patch. -/
theorem groupVar_apply (x : FVec Ideal S8x128x256x256 .f32) (b : Fin 8) (i j : Fin 4) (g : Fin 32) (u0 u1 u2 : Fin 1) :
    groupVar (grouped (toPatches x)) (ix7 b i j g u0 u1 u2) = var (patch x b i j) g := by
  unfold groupVar
  rw [select_apply, broadcastInDim_scalar_apply, guard_val, select_one, hostDivf_apply, groupSum_apply, splatStat_apply,
    normalizer_val, ← ofBits_count, div_count, ofBits_zero, zero_add]
  simp only [mulf_apply, deviation_apply]
  rfl

/-- The reciprocal root the host applies is the one function the specification names. -/
theorem hostRsqrt_apply {s : Shape} (v : FVec Ideal s .f32) (q : s.Idx) : Host.rsqrt v q = Ideal.rsqrt (v q) := rfl

/-- The host's exponential of the negated value, at an index. -/
theorem hostExpNeg_apply {s : Shape} (v : FVec Ideal s .f32) (q : s.Idx) : Host.exp (Host.negf v) q = Ideal.exp (-(v q)) := rfl

/-- The normalised value, in the grouped layout: the deviation times the reciprocal root of the guarded variance. -/
theorem normalized_apply (x : FVec Ideal S8x128x256x256 .f32) (b : Fin 8) (i j : Fin 4) (g : Fin 32) (cc : Fin 4) (h w : Fin 64) :
    normalized (grouped (toPatches x)) (ix7 b i j g cc h w)
      = (patch x b i j (chan g cc) h w - mean (patch x b i j) g) * Ideal.rsqrt (var (patch x b i j) g + eps) := by
  unfold normalized
  rw [mulf_apply, deviation_apply, overGroup_apply, hostRsqrt_apply, addf_apply, groupVar_apply, splatStat_apply]
  rfl

/-- SiLU as the reference spells it is `y * logistic y`. -/
theorem silu_apply (yv : FVec Ideal S8x4x4x128x64x64 .f32) (q : S8x4x4x128x64x64.Idx) :
    silu yv q = yv q * Ideal.logistic (yv q) := by
  unfold silu
  rw [mulf_apply, hostDivf_apply, addf_apply, splatPatches_apply, hostExpNeg_apply]
  exact congrArg (fun t => yv q * t) (logistic_eq (yv q))

/-- The reference's result in the patches' layout is the patch function. -/
theorem gatedPatches_apply (x y : FVec Ideal S8x128x256x256 .f32) (wv bv : FVec Ideal S128 .f32) (b : Fin 8) (i j : Fin 4)
    (c : Fin 128) (h w : Fin 64) :
    gatedPatches x y wv bv (ix6 b i j c h w) = P (patch x b i j) (patch y b i j) (chanVec wv) (chanVec bv) c h w := by
  unfold gatedPatches
  rw [mulf_apply, addf_apply, addf_apply, mulf_apply, ungrouped_apply, overChannels_apply, overChannels_apply,
    splatPatches_apply, normalized_apply, silu_apply, toPatches_apply, chan_grp_sub, constant_apply, ofBits_one]
  rfl

/-- The reference's composed term, at the extended reals, is the result function `G`. -/
theorem refOut_eq (x y : FVec Ideal S8x128x256x256 .f32) (w b : FVec Ideal S128 .f32) :
    refOut (F := Ideal) x y w b = G x y w b := by
  funext q
  obtain ⟨b', c, r, s, rfl⟩ : ∃ (b' : Fin 8) (c : Fin 128) (r s : Fin 256), q = ix4 b' c r s :=
    ⟨q 0, q 1, q 2, q 3, eq_ix4 q⟩
  rw [G_ix4]
  unfold refOut
  rw [fromPatches_apply]
  exact gatedPatches_apply x y w b b' (blk r) (blk s) c (off r) (off s)

end Cert.RefSide

end
-- ==== Proof.lean ====
/-
  Per-patch group normalisation gated by SiLU: a Pallas kernel against its jnp reference, over the extended reals.

  Both programs cut each 256 x 256 image into a 4 x 4 grid of 64 x 64 patches and the 128 channels into 32 groups
  of 4, normalise every (patch, group) by its own mean and variance, scale and shift per channel, and multiply by
  1 + y * logistic y. The kernel does it block by block (a grid step holds two patches side by side), summing a
  group column first, then row, then channel, and multiplying by the float 2^-14; the reference re-lays the arrays
  into patches, sums a group in one reduction and divides by 16384. On the extended reals these are one function
  `G` of the arguments (Proof/Spec.lean): sums may be regrouped freely, dividing by 16384 is multiplying by 2^-14,
  and the reference's spelled-out 1 / (1 + e^(-y)) is the logistic function. No finiteness of the inputs is used.

  The kernel's frames are the generated ones; the reference's frame is its run with the result dropped; nothing
  was rewritten by the idealization, so `preserves` is trivial.
-/
import proofs.«132345_j75144747811287_1_alg».proof.Defs
import proofs.«132345_j75144747811287_1_alg».proof.Proof.Gen.Kernel
import proofs.«132345_j75144747811287_1_alg».proof.Proof.Gen.Kernel.Frame
import proofs.«132345_j75144747811287_1_alg».proof.Proof.Gen.KernelIdeal
import proofs.«132345_j75144747811287_1_alg».proof.Proof.Gen.KernelIdeal.Frame
import proofs.«132345_j75144747811287_1_alg».proof.Proof.Gen.KernelIdeal.Value
import proofs.«132345_j75144747811287_1_alg».proof.Proof.Gen.ReferenceIdeal
import proofs.«132345_j75144747811287_1_alg».proof.Proof.Gen.Pre_finite_inputs
import proofs.«132345_j75144747811287_1_alg».proof.Proof.KerBlocks
import proofs.«132345_j75144747811287_1_alg».proof.Proof.RefRun
import proofs.«132345_j75144747811287_1_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.RefSide.run (F := Ideal) m ρ)

/-- Both programs end at `G` of arguments that agree. -/
theorem algebraic : Cert.algebraic_KernelIdeal_ReferenceIdeal := by
  intro m ρ m' ρ' _ hagree
  refine ⟨_, Cert.KernelSide.run m ρ, ?_⟩
  refine (θ_run Cert.ReferenceIdeal.defs _ _).mono (fun _ h c => ⟨(h c).1.trans ?_, (h c).2⟩)
    (Cert.RefSide.run (F := Ideal) m' ρ')
  rw [(hagree c).1, (hagree c).2.1, (hagree c).2.2.1, (hagree c).2.2.2]
  exact Cert.RefSide.refOut_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
